-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x128x128 : Shape := ⟨3, ![8, 128, 128]⟩
abbrev S8x128x64 : Shape := ⟨3, ![8, 128, 64]⟩
abbrev S_ : Shape := ⟨0, ![]⟩

class Facts : Prop where
  bcast_S_S8x128x128 : S_.BroadcastsInDim S8x128x128 (![] : Fin 0 → Fin S8x128x128.rank)
  reducesTo_S8x128x128_S_d0_1_2 : S8x128x128.ReducesTo [0, 1, 2] S_
  h_S_ : 0 < S_.numel
  bcast_S_S8x128x64 : S_.BroadcastsInDim S8x128x64 (![] : Fin 0 → Fin S8x128x64.rank)
  reducesTo_S8x128x64_S_d0_1_2 : S8x128x64.ReducesTo [0, 1, 2] S_

variable [Facts]

def fn {F : FTy → Type} [FloatOps F] (main_arg0 : FVec F S8x128x128 .f32) (main_arg1 : FVec F S8x128x64 .f32) : IVec S_ 1 :=
  let main_v0 : FVec F S8x128x128 .f32 := Host.absf main_arg0
  let main_cst : FVec F S_ .f32 := constant S_ .f32 0x7F800000#32
  let main_v1 : FVec F S8x128x128 .f32 := broadcastInDim S8x128x128 ![] bcast_S_S8x128x128 main_cst
  let main_v2 : IVec S8x128x128 1 := cmpf .olt main_v0 main_v1
  let main_c : IVec S_ 1 := constantI S_ 1 1#1
  let main_v3 : IVec S_ 1 := (fun x v => Host.reduce IntOp.andi x v reducesTo_S8x128x128_S_d0_1_2 h_S_) main_v2 main_c
  let main_v4 : FVec F S8x128x64 .f32 := Host.absf main_arg1
  let main_cst_0 : FVec F S_ .f32 := constant S_ .f32 0x7F800000#32
  let main_v5 : FVec F S8x128x64 .f32 := broadcastInDim S8x128x64 ![] bcast_S_S8x128x64 main_cst_0
  let main_v6 : IVec S8x128x64 1 := cmpf .olt main_v4 main_v5
  let main_c_1 : IVec S_ 1 := constantI S_ 1 1#1
  let main_v7 : IVec S_ 1 := (fun x v => Host.reduce IntOp.andi x v reducesTo_S8x128x64_S_d0_1_2 h_S_) main_v6 main_c_1
  let main_v8 : IVec S_ 1 := andi main_v3 main_v7
  main_v8
-- ==== Kernel.lean ====
abbrev S8x128x128 : Shape := ⟨3, ![8, 128, 128]⟩
abbrev S8x128x64 : Shape := ⟨3, ![8, 128, 64]⟩
abbrev S128x512 : Shape := ⟨2, ![128, 512]⟩
abbrev S1x128x64 : Shape := ⟨3, ![1, 128, 64]⟩
abbrev S128x64 : Shape := ⟨2, ![128, 64]⟩
abbrev S1x128x128 : Shape := ⟨3, ![1, 128, 128]⟩
abbrev S128x128 : Shape := ⟨2, ![128, 128]⟩

abbrev nBuf : Space → Nat
  | .hbm => 3
  | .vmem => 3
  | .smem => 0
  | _ => 0

abbrev bufTy : (tb : Table) → Fin (tcTables nBuf tb) → BufTy
  | .hbm, ⟨0, _⟩ => ⟨S8x128x128, .f32⟩
  | .hbm, ⟨1, _⟩ => ⟨S8x128x64, .f32⟩
  | .hbm, ⟨2, _⟩ => ⟨S8x128x64, .f32⟩
  | .local _ .vmem, ⟨0, _⟩ => ⟨S8x128x128, .f32⟩
  | .local _ .vmem, ⟨1, _⟩ => ⟨S8x128x64, .f32⟩
  | .local _ .vmem, ⟨2, _⟩ => ⟨S8x128x64, .f32⟩
  | _, _ => ⟨S8x128x128, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 1 → Memref sig .tc .vmem S8x128x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S8x128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x128x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

class Facts₀ : Prop where
  inb_S8x128x64_S1x128x64_0_0_0 : ∀ a, (![0, 0, 0] : Fin 3 → Nat) a + S1x128x64.size a ≤ S8x128x64.size a
  h_S1x128x64 : 0 < S1x128x64.numel
  shapeCasts_S1x128x64_S128x64 : S1x128x64.ShapeCasts S128x64
  inb_S8x128x64_S1x128x64_1_0_0 : ∀ a, (![1, 0, 0] : Fin 3 → Nat) a + S1x128x64.size a ≤ S8x128x64.size a
  inb_S8x128x64_S1x128x64_2_0_0 : ∀ a, (![2, 0, 0] : Fin 3 → Nat) a + S1x128x64.size a ≤ S8x128x64.size a
  inb_S8x128x64_S1x128x64_3_0_0 : ∀ a, (![3, 0, 0] : Fin 3 → Nat) a + S1x128x64.size a ≤ S8x128x64.size a
  inb_S8x128x64_S1x128x64_4_0_0 : ∀ a, (![4, 0, 0] : Fin 3 → Nat) a + S1x128x64.size a ≤ S8x128x64.size a
  inb_S8x128x64_S1x128x64_5_0_0 : ∀ a, (![5, 0, 0] : Fin 3 → Nat) a + S1x128x64.size a ≤ S8x128x64.size a
  inb_S8x128x64_S1x128x64_6_0_0 : ∀ a, (![6, 0, 0] : Fin 3 → Nat) a + S1x128x64.size a ≤ S8x128x64.size a
  inb_S8x128x64_S1x128x64_7_0_0 : ∀ a, (![7, 0, 0] : Fin 3 → Nat) a + S1x128x64.size a ≤ S8x128x64.size a
  concatenates_S128x64_S128x64_S128x64_S128x64_S128x64_S128x64_S128x64_S128x64_S128x512_d1 : Shape.Concatenates [S128x64, S128x64, S128x64, S128x64, S128x64, S128x64, S128x64, S128x64] S128x512 1
  inb_S8x128x128_S1x128x128_0_0_0 : ∀ a, (![0, 0, 0] : Fin 3 → Nat) a + S1x128x128.size a ≤ S8x128x128.size a
  h_S1x128x128 : 0 < S1x128x128.numel
  shapeCasts_S1x128x128_S128x128 : S1x128x128.ShapeCasts S128x128
  bitsLt_bf16_f32 : FTy.bits .bf16 < FTy.bits .f32
  inb_S8x128x128_S1x128x128_1_0_0 : ∀ a, (![1, 0, 0] : Fin 3 → Nat) a + S1x128x128.size a ≤ S8x128x128.size a
  inb_S8x128x128_S1x128x128_2_0_0 : ∀ a, (![2, 0, 0] : Fin 3 → Nat) a + S1x128x128.size a ≤ S8x128x128.size a
  inb_S8x128x128_S1x128x128_3_0_0 : ∀ a, (![3, 0, 0] : Fin 3 → Nat) a + S1x128x128.size a ≤ S8x128x128.size a
  inb_S8x128x128_S1x128x128_4_0_0 : ∀ a, (![4, 0, 0] : Fin 3 → Nat) a + S1x128x128.size a ≤ S8x128x128.size a
  inb_S8x128x128_S1x128x128_5_0_0 : ∀ a, (![5, 0, 0] : Fin 3 → Nat) a + S1x128x128.size a ≤ S8x128x128.size a
  inb_S8x128x128_S1x128x128_6_0_0 : ∀ a, (![6, 0, 0] : Fin 3 → Nat) a + S1x128x128.size a ≤ S8x128x128.size a
  inb_S8x128x128_S1x128x128_7_0_0 : ∀ a, (![7, 0, 0] : Fin 3 → Nat) a + S1x128x128.size a ≤ S8x128x128.size a
  slices_S128x512_o0_0_S128x64 : S128x512.Slices ![0, 0] S128x64
  shapeCasts_S128x64_S1x128x64 : S128x64.ShapeCasts S1x128x64
  slices_S128x512_o0_64_S128x64 : S128x512.Slices ![0, 64] S128x64
  slices_S128x512_o0_128_S128x64 : S128x512.Slices ![0, 128] S128x64
  slices_S128x512_o0_192_S128x64 : S128x512.Slices ![0, 192] S128x64
  slices_S128x512_o0_256_S128x64 : S128x512.Slices ![0, 256] S128x64
  slices_S128x512_o0_320_S128x64 : S128x512.Slices ![0, 320] S128x64
  slices_S128x512_o0_384_S128x64 : S128x512.Slices ![0, 384] S128x64
  slices_S128x512_o0_448_S128x64 : S128x512.Slices ![0, 448] S128x64
  dot_S128x128_S128x512_S128x512_1_0_0_1_n_n_wf : DotDims.WF S128x128 S128x512 S128x512 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S8x128x128.size a ≤ S8x128x128.size a
  hwx0_0 : ∀ i : grid0.Coords, EltTy.bits .f32 = 32 ∨ (Rect.block (s := S8x128x128) S8x128x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8x128x64.size a ≤ S8x128x64.size a
  hwx0_1 : ∀ i : grid0.Coords, EltTy.bits .f32 = 32 ∨ (Rect.block (s := S8x128x64) S8x128x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S8x128x64.size a ≤ S8x128x64.size a
  hwx0_2 : ∀ i : grid0.Coords, EltTy.bits .f32 = 32 ∨ (Rect.block (s := S8x128x64) S8x128x64.size (cc0_transform_2 i) (hinb0_2 i)).WholeWords (EltTy.packing .f32)

variable [Facts₀]

def dot_S128x128_S128x512_S128x512_1_0_0_1_n_n : DotDims S128x128 S128x512 S128x512 where
  lhsContracting := [1]
  rhsContracting := [0]
  lhsNonContracting := [0]
  rhsNonContracting := [1]
  lhsBatch := []
  rhsBatch := []
  wf := dot_S128x128_S128x512_S128x512_1_0_0_1_n_n_wf

abbrev win0_0 : Pipeline.Window sig grid0 :=
  Pipeline.Window.ofSpec (Memref.whole main_arg0) S8x128x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8x128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S8x128x64.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8x128x128 : Shape := ⟨3, ![8, 128, 128]⟩
abbrev S8x128x64 : Shape := ⟨3, ![8, 128, 64]⟩
abbrev S64 : Shape := ⟨1, ![64]⟩
abbrev S64x1x1x1 : Shape := ⟨4, ![64, 1, 1, 1]⟩
abbrev S_ : Shape := ⟨0, ![]⟩
abbrev S64x1 : Shape := ⟨2, ![64, 1]⟩
abbrev S64x128x128 : Shape := ⟨3, ![64, 128, 128]⟩
abbrev S64x128x128x1 : Shape := ⟨4, ![64, 128, 128, 1]⟩
abbrev S64x128x64 : Shape := ⟨3, ![64, 128, 64]⟩
abbrev S64x1x128x64 : Shape := ⟨4, ![64, 1, 128, 64]⟩
abbrev S64x128x128x64 : Shape := ⟨4, ![64, 128, 128, 64]⟩
abbrev S8x128x128x64 : Shape := ⟨4, ![8, 128, 128, 64]⟩

abbrev nBuf : Space → Nat
  | .hbm => 34
  | .vmem => 0
  | .smem => 0
  | _ => 0

abbrev bufTy : (tb : Table) → Fin (tcTables nBuf tb) → BufTy
  | .hbm, ⟨0, _⟩ => ⟨S8x128x128, .f32⟩
  | .hbm, ⟨1, _⟩ => ⟨S8x128x64, .f32⟩
  | .hbm, ⟨2, _⟩ => ⟨S64, .f32⟩
  | .hbm, ⟨3, _⟩ => ⟨S64, .i32⟩
  | .hbm, ⟨4, _⟩ => ⟨S64, .i1⟩
  | .hbm, ⟨5, _⟩ => ⟨S64, .i32⟩
  | .hbm, ⟨6, _⟩ => ⟨S64, .i1⟩
  | .hbm, ⟨7, _⟩ => ⟨S64, .i32⟩
  | .hbm, ⟨8, _⟩ => ⟨S64x1x1x1, .f32⟩
  | .hbm, ⟨9, _⟩ => ⟨S_, .i32⟩
  | .hbm, ⟨10, _⟩ => ⟨S64, .i32⟩
  | .hbm, ⟨11, _⟩ => ⟨S64, .i32⟩
  | .hbm, ⟨12, _⟩ => ⟨S64, .i32⟩
  | .hbm, ⟨13, _⟩ => ⟨S64x1, .i32⟩
  | .hbm, ⟨14, _⟩ => ⟨S64x128x128, .f32⟩
  | .hbm, ⟨15, _⟩ => ⟨S64x128x128x1, .f32⟩
  | .hbm, ⟨16, _⟩ => ⟨S_, .i32⟩
  | .hbm, ⟨17, _⟩ => ⟨S64, .i32⟩
  | .hbm, ⟨18, _⟩ => ⟨S64, .i32⟩
  | .hbm, ⟨19, _⟩ => ⟨S64, .i32⟩
  | .hbm, ⟨20, _⟩ => ⟨S64x1, .i32⟩
  | .hbm, ⟨21, _⟩ => ⟨S64x128x64, .f32⟩
  | .hbm, ⟨22, _⟩ => ⟨S64x1x128x64, .f32⟩
  | .hbm, ⟨23, _⟩ => ⟨S64x128x128x1, .f32⟩
  | .hbm, ⟨24, _⟩ => ⟨S64x128x128x1, .f32⟩
  | .hbm, ⟨25, _⟩ => ⟨S64x128x128x64, .f32⟩
  | .hbm, ⟨26, _⟩ => ⟨S64x128x128x64, .f32⟩
  | .hbm, ⟨27, _⟩ => ⟨S64x128x128x64, .f32⟩
  | .hbm, ⟨28, _⟩ => ⟨S_, .f32⟩
  | .hbm, ⟨29, _⟩ => ⟨S8x128x128x64, .f32⟩
  | .hbm, ⟨30, _⟩ => ⟨S64x1, .i32⟩
  | .hbm, ⟨31, _⟩ => ⟨S8x128x128x64, .f32⟩
  | .hbm, ⟨32, _⟩ => ⟨S_, .f32⟩
  | .hbm, ⟨33, _⟩ => ⟨S8x128x64, .f32⟩
  | _, _ => ⟨S8x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_c : Ref sig .tc := ⟨.hbm, 3, rfl⟩
abbrev main_c_0 : Ref sig .tc := ⟨.hbm, 4, rfl⟩
abbrev main_c_1 : Ref sig .tc := ⟨.hbm, 5, rfl⟩
abbrev main_c_2 : Ref sig .tc := ⟨.hbm, 6, rfl⟩
abbrev main_c_3 : Ref sig .tc := ⟨.hbm, 7, rfl⟩
abbrev main_v0 : Ref sig .tc := ⟨.hbm, 8, rfl⟩
abbrev main_c_4 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_c_5 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_6 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_7 : Ref sig .tc := ⟨.hbm, 32, rfl⟩
abbrev main_v21 : Ref sig .tc := ⟨.hbm, 33, rfl⟩

abbrev nD : Nat := 1
abbrev τ : Topo := Topo.v7x

variable {F : FTy → Type} [FloatOps F]

class Facts₀ : Prop where
  bcast_S64_S64x1x1x1_0 : S64.BroadcastsInDim S64x1x1x1 (![0] : Fin 1 → Fin S64x1x1x1.rank)
  bcast_S_S64 : S_.BroadcastsInDim S64 (![] : Fin 0 → Fin S64.rank)
  bcast_S64_S64x1_0 : S64.BroadcastsInDim S64x1 (![0] : Fin 1 → Fin S64x1.rank)
  bcast_S64x128x128_S64x128x128x1_0_1_2 : S64x128x128.BroadcastsInDim S64x128x128x1 (![0, 1, 2] : Fin 3 → Fin S64x128x128x1.rank)
  bcast_S64x128x64_S64x1x128x64_0_2_3 : S64x128x64.BroadcastsInDim S64x1x128x64 (![0, 2, 3] : Fin 3 → Fin S64x1x128x64.rank)
  bcast_S64x1x1x1_S64x128x128x1_0_1_2_3 : S64x1x1x1.BroadcastsInDim S64x128x128x1 (![0, 1, 2, 3] : Fin 4 → Fin S64x128x128x1.rank)
  bcast_S64x128x128x1_S64x128x128x64_0_1_2_3 : S64x128x128x1.BroadcastsInDim S64x128x128x64 (![0, 1, 2, 3] : Fin 4 → Fin S64x128x128x64.rank)
  bcast_S64x1x128x64_S64x128x128x64_0_1_2_3 : S64x1x128x64.BroadcastsInDim S64x128x128x64 (![0, 1, 2, 3] : Fin 4 → Fin S64x128x128x64.rank)
  bcast_S_S8x128x128x64 : S_.BroadcastsInDim S8x128x128x64 (![] : Fin 0 → Fin S8x128x128x64.rank)
  reducesTo_S8x128x128x64_S8x128x64_d2 : S8x128x128x64.ReducesTo [2] S8x128x64
  h_S_ : 0 < S_.numel
  gather_S8x128x128_S64x1_S64x128x128_12_0_n_n_0_1_1128128_wf : GatherDims.WF S8x128x128 S64x1 S64x128x128 [1, 2] [0] [] [0] [] 1 ![1, 128, 128]
  gather_S8x128x64_S64x1_S64x128x64_12_0_n_n_0_1_112864_wf : GatherDims.WF S8x128x64 S64x1 S64x128x64 [1, 2] [0] [] [0] [] 1 ![1, 128, 64]
  scatter_S8x128x128x64_S64x1_S64x128x128x64_123_0_0_1_wf : ScatterDims.WF S8x128x128x64 S64x1 S64x128x128x64 [1, 2, 3] [0] [0] 1

variable [Facts₀]

def gather_S8x128x128_S64x1_S64x128x128_12_0_n_n_0_1_1128128 : GatherDims S8x128x128 S64x1 S64x128x128 where
  offsetDims := [1, 2]
  collapsedSliceDims := [0]
  operandBatchingDims := []
  startIndicesBatchingDims := []
  startIndexMap := [0]
  indexVectorDim := 1
  sliceSizes := ![1, 128, 128]
  wf := gather_S8x128x128_S64x1_S64x128x128_12_0_n_n_0_1_1128128_wf
def gather_S8x128x64_S64x1_S64x128x64_12_0_n_n_0_1_112864 : GatherDims S8x128x64 S64x1 S64x128x64 where
  offsetDims := [1, 2]
  collapsedSliceDims := [0]
  operandBatchingDims := []
  startIndicesBatchingDims := []
  startIndexMap := [0]
  indexVectorDim := 1
  sliceSizes := ![1, 128, 64]
  wf := gather_S8x128x64_S64x1_S64x128x64_12_0_n_n_0_1_112864_wf
def scatter_S8x128x128x64_S64x1_S64x128x128x64_123_0_0_1 : ScatterDims S8x128x128x64 S64x1 S64x128x128x64 where
  updateWindowDims := [1, 2, 3]
  insertedWindowDims := [0]
  scatterDimsToOperandDims := [0]
  indexVectorDim := 1
  wf := scatter_S8x128x128x64_S64x1_S64x128x128x64_123_0_0_1_wf

class Facts : Prop extends Facts₀ where

variable [Facts]
-- ==== Proof.Blades.lean ====
/-
  The geometric product of 3-dimensional multivectors in blade coordinates, as a dense layer.

  A multivector has 8 blade coordinates; the product of basis blades `e_a e_b` is `± e_o` for exactly one output
  blade `o`.  Enumerate the 64 pairs `p = 8 a + b`; `outBlade p` is that `o` and `negPair p` says the sign is `-1`.
  For a fixed input blade `a` the map `b ↦ o` is a permutation of the 8 blades, so the pairs landing on output blade
  `o` are exactly `8 a + wBlade a o`, one per `a`.

  Two arrangements of the same number, for inputs `x : [8, 128, 128]` (blade, batch row, feature) and
  `w : [8, 128, 64]` (blade, feature, unit):
  * `pairSum`: for each feature, the sum over the pairs landing on `o` of `(± x) · w`, then the sum over features;
  * `bladeSum`: for each input blade `a`, the contraction over features of `x` with the signed weight `± w`
    (the negative sign written `0 - w`), then the sum over `a`.
  `bladeSum_eq_pairSum`: they agree on the extended reals (only commutativity and associativity of the sum and
  `(-1 · x) · w = x · (0 - w)` are used, so no finiteness is needed).
-/
import Idealize.ShloMosaic.Lib.ValueIdx

noncomputable section

open scoped BigOperators

namespace Cert.GeomProduct

open Idealize.ShloMosaic Idealize.ShloMosaic.ValueIdx

/-- Inputs' and result's index shapes. -/
abbrev SX : Shape := ⟨3, ![8, 128, 128]⟩
abbrev SW : Shape := ⟨3, ![8, 128, 64]⟩

/-- The output blade of pair `p = 8 a + b`: `e_a e_b = ± e_(outBlade p)`. -/
def outBlade : Fin 64 → Fin 8 :=
  ![0, 1, 2, 3, 4, 5, 6, 7,
    1, 0, 4, 5, 2, 3, 7, 6,
    2, 4, 0, 6, 1, 7, 3, 5,
    3, 5, 6, 0, 7, 1, 2, 4,
    4, 2, 1, 7, 0, 6, 5, 3,
    5, 3, 7, 1, 6, 0, 4, 2,
    6, 7, 3, 2, 5, 4, 0, 1,
    7, 6, 5, 4, 3, 2, 1, 0]

/-- Whether pair `p`'s sign is `-1`. -/
def negPair : Fin 64 → Bool :=
  ![false, false, false, false, false, false, false, false,
    false, false, false, false, false, false, false, false,
    false, true, false, false, true, true, false, true,
    false, true, true, false, false, true, true, false,
    false, true, false, false, true, true, false, true,
    false, true, true, false, false, true, true, false,
    false, false, true, false, true, false, true, true,
    false, false, true, false, true, false, true, true]

/-- The input blade `a` and the weight blade `b` of pair `p = 8 a + b`. -/
def xBlade (p : Fin 64) : Fin 8 := ⟨p.val / 8, by omega⟩
def wBladeOf (p : Fin 64) : Fin 8 := ⟨p.val % 8, by omega⟩

/-- The pair of input blade `a` and weight blade `b`. -/
def pairOf (a b : Fin 8) : Fin 64 := ⟨8 * a.val + b.val, by omega⟩

/-- For input blade `a` and output blade `o`, the weight blade `b` with `e_a e_b = ± e_o`. -/
def wBlade : Fin 8 → Fin 8 → Fin 8 :=
  ![![0, 1, 2, 3, 4, 5, 6, 7],
    ![1, 0, 4, 5, 2, 3, 7, 6],
    ![2, 4, 0, 6, 1, 7, 3, 5],
    ![3, 5, 6, 0, 7, 1, 2, 4],
    ![4, 2, 1, 7, 0, 6, 5, 3],
    ![5, 3, 7, 1, 6, 0, 4, 2],
    ![6, 7, 3, 2, 5, 4, 0, 1],
    ![7, 6, 5, 4, 3, 2, 1, 0]]

/-- Whether `e_a e_(wBlade a o) = - e_o`. -/
def negAt (a o : Fin 8) : Bool := negPair (pairOf a (wBlade a o))

/-- The sign of pair `p` as an extended real. -/
def sgn (p : Fin 64) : EReal := if negPair p then -1 else 1

/-- The weight of blade `wBlade a o` carrying the product's sign, a negative sign written as `0 - w`. -/
def signedW (w : SW.Idx → EReal) (a o : Fin 8) (f : Fin 128) (u : Fin 64) : EReal :=
  if negAt a o then 0 - w (ix3 (wBlade a o) f u) else w (ix3 (wBlade a o) f u)

/-- Blade by blade: the sum over input blades of the feature contraction with the signed weight. -/
def bladeSum (x : SX.Idx → EReal) (w : SW.Idx → EReal) : SW.Idx → EReal := fun i =>
  ∑ a : Fin 8, ∑ f : Fin 128, x (ix3 a (i 1) f) * signedW w a (i 0) f (i 2)

/-- Pair by pair: per feature the signed products of the pairs landing on the output blade, summed over features. -/
def pairSum (x : SX.Idx → EReal) (w : SW.Idx → EReal) : SW.Idx → EReal := fun i =>
  ∑ f : Fin 128, ∑ p ∈ Finset.univ.filter (fun p : Fin 64 => (outBlade p).val = (i 0).val),
    (sgn p * x (ix3 (xBlade p) (i 1) f)) * w (ix3 (wBladeOf p) f (i 2))

end Cert.GeomProduct

end
-- ==== Proof.LibFinSum.lean ====
/-
  Finite sums re-indexed: a sum over the `m * n` flat positions of a row-major `m × n` table is the sum over its rows of
  the sum along each row (entry `(i, j)` sits at position `i * n + j`), and a sum over the multi-indices of a rank-1
  shape is the sum over its one coordinate.  Only commutativity and associativity of the addition are used, so the
  statements hold in every commutative additive monoid, the extended reals with their infinities included.
-/
import Idealize.ShloMosaic.Lib.ValueIdx

open Idealize.ShloMosaic Idealize.ShloMosaic.ValueIdx

namespace Cert.LibFinSum

/-- Entry `(i, j)` of an `m × n` table sits inside its `m * n` flat positions. -/
theorem coord_lt {m n i j : ℕ} (hi : i < m) (hj : j < n) : i * n + j < m * n :=
  calc i * n + j < i * n + n := by omega
    _ = (i + 1) * n := by ring
    _ ≤ m * n := Nat.mul_le_mul_right n hi

/-- A sum over the flat positions of an `m × n` table, row by row. -/
theorem sum_fin_mul {M : Type*} [AddCommMonoid M] (m n : ℕ) (f : Fin (m * n) → M) :
    ∑ k, f k = ∑ i : Fin m, ∑ j : Fin n, f ⟨i.val * n + j.val, coord_lt i.isLt j.isLt⟩ := by
  rw [← (finProdFinEquiv (m := m) (n := n)).sum_comp f, Fintype.sum_prod_type]
  refine Finset.sum_congr rfl fun i _ => Finset.sum_congr rfl fun j _ => congrArg f (Fin.ext ?_)
  show j.val + n * i.val = i.val * n + j.val
  ring

/-- The same when the number of positions is only known to equal `m * n` (a literal such as `33554432 = 262144 * 128`). -/
theorem sum_fin_of_eq_mul {M : Type*} [AddCommMonoid M] {N : ℕ} (m n : ℕ) (h : N = m * n) (f : Fin N → M) :
    ∑ k, f k = ∑ i : Fin m, ∑ j : Fin n, f ⟨i.val * n + j.val, h ▸ coord_lt i.isLt j.isLt⟩ := by
  subst h
  exact sum_fin_mul m n f

/-- A rank-1 multi-index is its one coordinate. -/
def idxEquiv1 {n : ℕ} : (⟨1, ![n]⟩ : Shape).Idx ≃ Fin n where
  toFun j := j 0
  invFun := ix1
  left_inv j := (eq_ix1 j).symm
  right_inv _ := rfl

/-- A sum over the multi-indices of a rank-1 shape is the sum over its coordinate. -/
theorem sum_idx1 {M : Type*} [AddCommMonoid M] {n : ℕ} (f : (⟨1, ![n]⟩ : Shape).Idx → M) :
    ∑ i, f i = ∑ k : Fin n, f (ix1 k) :=
  (idxEquiv1.symm.sum_comp f).symm

end Cert.LibFinSum
-- ==== Proof.BladesLaw.lean ====
/-
  The two arrangements of the blade product agree: `bladeSum x w = pairSum x w` on the extended reals.

  For a fixed feature the pairs `p = 8 a + b` landing on output blade `o` are one per input blade `a`, namely
  `b = wBlade a o` (the product by a fixed basis blade permutes the blades), so the sum over those pairs is a sum over `a`;
  the two finite sums over `a` and over the feature then commute; and term by term
  `(± 1 · x) · w = x · (± w)`, the minus on the right written `0 - w`.
-/
import proofs.«127609_j60069412602337_1_alg».proof.Proof.Blades
import proofs.«127609_j60069412602337_1_alg».proof.Proof.LibFinSum
import Mathlib.Data.EReal.Operations

noncomputable section

open scoped BigOperators

namespace Cert.GeomProduct

open Idealize.ShloMosaic Idealize.ShloMosaic.ValueIdx

/-- Pair `8 a + b` lands on output blade `o` exactly when `b = wBlade a o`. -/
theorem outBlade_pair_iff : ∀ a b o : Fin 8, (outBlade (pairOf a b)).val = o.val ↔ b = wBlade a o := by
  decide +kernel

theorem xBlade_pairOf (a b : Fin 8) : xBlade (pairOf a b) = a := by
  apply Fin.ext; show (8 * a.val + b.val) / 8 = a.val; omega

theorem wBladeOf_pairOf (a b : Fin 8) : wBladeOf (pairOf a b) = b := by
  apply Fin.ext; show (8 * a.val + b.val) % 8 = b.val; omega

/-- One signed product, the sign moved from the input to the weight. -/
theorem signed_term (a o : Fin 8) (X W : EReal) :
    (sgn (pairOf a (wBlade a o)) * X) * W = X * (if negAt a o then 0 - W else W) := by
  unfold sgn negAt
  cases negPair (pairOf a (wBlade a o))
  · simp
  · simp only [if_true, neg_mul, one_mul, zero_sub, mul_neg]

/-- The sum over the pairs landing on `o` is the sum over the input blades. -/
theorem sum_pairs_on (o : Fin 8) (g : Fin 64 → EReal) :
    ∑ p ∈ Finset.univ.filter (fun p : Fin 64 => (outBlade p).val = o.val), g p = ∑ a : Fin 8, g (pairOf a (wBlade a o)) := by
  rw [Finset.sum_filter, Cert.LibFinSum.sum_fin_of_eq_mul 8 8 (by norm_num : 64 = 8 * 8)]
  refine Finset.sum_congr rfl fun a _ => ?_
  have hp : ∀ b : Fin 8, (⟨a.val * 8 + b.val, (by norm_num : 64 = 8 * 8) ▸ Cert.LibFinSum.coord_lt a.isLt b.isLt⟩ : Fin 64) = pairOf a b :=
    fun b => Fin.ext (by show a.val * 8 + b.val = 8 * a.val + b.val; omega)
  simp only [hp, outBlade_pair_iff]
  rw [Finset.sum_ite_eq' Finset.univ (wBlade a o) fun b => g (pairOf a b)]
  simp

theorem bladeSum_eq_pairSum (x : SX.Idx → EReal) (w : SW.Idx → EReal) : bladeSum x w = pairSum x w := by
  funext i
  obtain ⟨o, b, u, rfl⟩ : ∃ (o : Fin 8) (b : Fin 128) (u : Fin 64), i = ix3 o b u := ⟨i 0, i 1, i 2, eq_ix3 i⟩
  show ∑ a : Fin 8, ∑ f : Fin 128, x (ix3 a b f) * signedW w a o f u
      = ∑ f : Fin 128, ∑ p ∈ Finset.univ.filter (fun p : Fin 64 => (outBlade p).val = o.val),
          (sgn p * x (ix3 (xBlade p) b f)) * w (ix3 (wBladeOf p) f u)
  rw [Finset.sum_comm]
  refine Finset.sum_congr rfl fun f _ => ?_
  rw [sum_pairs_on o fun p => (sgn p * x (ix3 (xBlade p) b f)) * w (ix3 (wBladeOf p) f u)]
  refine Finset.sum_congr rfl fun a _ => ?_
  rw [xBlade_pairOf, wBladeOf_pairOf, signed_term]
  rfl

end Cert.GeomProduct

end
-- ==== Proof.KerBody.lean ====
/-
  What the kernel's body leaves in the result block: for each output blade `o`, batch row `b` and unit `u` the sum over
  the eight input blades `a` of the contraction over features of `x[a, b, ·]` with the signed weight block
  `± w[wBlade a o, ·, u]` (`Blades.bladeSum`).  The body accumulates eight matrix products `x[a] · W_a` into a zero
  accumulator, `W_a` the eight signed weight blocks side by side (512 columns), and stores columns
  `64 o … 64 o + 63` of the accumulator as output blade `o`.
-/
import proofs.«127609_j60069412602337_1_alg».proof.Proof.Gen.KernelIdeal.Frame
import proofs.«127609_j60069412602337_1_alg».proof.Proof.Blades
import Idealize.ShloMosaic.Lib.ValueIdx
import Idealize.ShloMosaic.Lib.Pipeline.Value
import Idealize.ShloMosaic.PureOps.Ideal.Laws
import Mathlib.Tactic.FinCases
import Mathlib.Algebra.BigOperators.Fin

noncomputable section

open scoped BigOperators

namespace Cert.GeomProduct.Ker

open Idealize.ShloMosaic Idealize.ShloMosaic.ValueIdx Cert.KernelIdeal Cert.KernelIdeal.Gen

/-- Column `64 o + u` of the 512 columns: unit `u` of output blade `o`. -/
def col (o : Fin 8) (u : Fin 64) : Fin 512 := ⟨64 * o.val + u.val, by omega⟩

/-! The product's operand indices at result index `j = (row, column)` and contraction position `k`: the left operand is
read at `(row, k)`, the right one at `(k, column)`; one lemma per axis. -/

theorem lhs_ax0 (j : S128x512.Idx) (k : dot_S128x128_S128x512_S128x512_1_0_0_1_n_n.contr.Idx) :
    ((dot_S128x128_S128x512_S128x512_1_0_0_1_n_n.lhsIdx j k) 0).val = (j 0).val := rfl
theorem rhs_ax1 (j : S128x512.Idx) (k : dot_S128x128_S128x512_S128x512_1_0_0_1_n_n.contr.Idx) :
    ((dot_S128x128_S128x512_S128x512_1_0_0_1_n_n.rhsIdx j k) 1).val = (j 1).val := rfl
theorem lhs_ax1 (j : S128x512.Idx) (k : dot_S128x128_S128x512_S128x512_1_0_0_1_n_n.contr.Idx) :
    ((dot_S128x128_S128x512_S128x512_1_0_0_1_n_n.lhsIdx j k) 1).val = (k ⟨0, by decide⟩).val :=
  dot_S128x128_S128x512_S128x512_1_0_0_1_n_n.lhsIdx_val_of_single rfl j k
theorem rhs_ax0 (j : S128x512.Idx) (k : dot_S128x128_S128x512_S128x512_1_0_0_1_n_n.contr.Idx) :
    ((dot_S128x128_S128x512_S128x512_1_0_0_1_n_n.rhsIdx j k) 0).val = (k ⟨0, by decide⟩).val :=
  dot_S128x128_S128x512_S128x512_1_0_0_1_n_n.rhsIdx_val_of_single rfl j k

/-- One matrix product into the zero block, read at row `b` and column `c`: the contraction over the feature. -/
theorem matmul_at (X : FVec Ideal S128x128 .f32) (W : FVec Ideal S128x512 .f32) (ht : FTy.bits .bf16 < FTy.bits .f32)
    (b : Fin 128) (c : Fin 512) :
    matmul dot_S128x128_S128x512_S128x512_1_0_0_1_n_n none (truncf .bf16 X ht) (truncf .bf16 W ht)
        (constant (F := Ideal) S128x512 .f32 0x00000000#32) (ix2 b c)
      = ∑ f : Fin 128, X (ix2 b f) * W (ix2 f c) := by
  refine (Ideal.matmul_constant_zero_apply dot_S128x128_S128x512_S128x512_1_0_0_1_n_n none _ _ (ix2 b c)).trans ?_
  rw [← Equiv.sum_comp (contrEquiv1 dot_S128x128_S128x512_S128x512_1_0_0_1_n_n 128 rfl rfl).symm]
  refine Finset.sum_congr rfl fun f _ => ?_
  have c2 := contrEquiv1_symm_val dot_S128x128_S128x512_S128x512_1_0_0_1_n_n 128 rfl rfl f
  have l2 : dot_S128x128_S128x512_S128x512_1_0_0_1_n_n.lhsIdx (ix2 b c)
      ((contrEquiv1 dot_S128x128_S128x512_S128x512_1_0_0_1_n_n 128 rfl rfl).symm f) = ix2 b f := by
    funext ax; apply Fin.ext
    match ax with
    | ⟨0, _⟩ => exact lhs_ax0 _ _
    | ⟨1, _⟩ => exact (lhs_ax1 _ _).trans c2
  have r2 : dot_S128x128_S128x512_S128x512_1_0_0_1_n_n.rhsIdx (ix2 b c)
      ((contrEquiv1 dot_S128x128_S128x512_S128x512_1_0_0_1_n_n 128 rfl rfl).symm f) = ix2 f c := by
    funext ax; apply Fin.ext
    match ax with
    | ⟨0, _⟩ => exact (rhs_ax0 _ _).trans c2
    | ⟨1, _⟩ => exact rhs_ax1 _ _
  rw [l2, r2]
  rfl

/-- The eight `[128, 64]` blocks side by side, read at column `64 o + u`: block `o` at unit `u`. -/
theorem concat_at (c0 c1 c2 c3 c4 c5 c6 c7 : FVec Ideal S128x64 .f32)
    (hc : Shape.Concatenates ([(⟨S128x64, c0⟩ : (s : Shape) × (s.Idx → Ideal .f32)), ⟨S128x64, c1⟩, ⟨S128x64, c2⟩, ⟨S128x64, c3⟩,
      ⟨S128x64, c4⟩, ⟨S128x64, c5⟩, ⟨S128x64, c6⟩, ⟨S128x64, c7⟩].map (·.1)) S128x512 1)
    (f : Fin 128) (o : Fin 8) (u : Fin 64) :
    concatenate S128x512 1 [⟨S128x64, c0⟩, ⟨S128x64, c1⟩, ⟨S128x64, c2⟩, ⟨S128x64, c3⟩, ⟨S128x64, c4⟩, ⟨S128x64, c5⟩,
        ⟨S128x64, c6⟩, ⟨S128x64, c7⟩] hc (ix2 f (col o u))
      = (![c0, c1, c2, c3, c4, c5, c6, c7] o) (ix2 f u) := by
  have hi : ∀ bb : Fin S128x64.rank, bb.cast (rfl : S128x64.rank = S128x512.rank) ≠ (1 : Fin S128x512.rank) →
      ((ix2 f u : S128x64.Idx) bb).val = ((ix2 f (col o u) : S128x512.Idx) (bb.cast rfl)).val := by
    intro bb hbb
    match bb with
    | ⟨0, _⟩ => rfl
    | ⟨1, _⟩ => exact absurd rfl hbb
  fin_cases o
  · exact concatenate_apply_piece (1 : Fin S128x512.rank) _ hc (ix2 f (col 0 u)) 0 (by simp) S128x64 c0 rfl rfl 0 rfl (ix2 f u) hi (by show 0 + u.val = 64 * 0 + u.val; omega)
  · exact concatenate_apply_piece (1 : Fin S128x512.rank) _ hc (ix2 f (col 1 u)) 1 (by simp) S128x64 c1 rfl rfl 64 rfl (ix2 f u) hi (by show 64 + u.val = 64 * 1 + u.val; omega)
  · exact concatenate_apply_piece (1 : Fin S128x512.rank) _ hc (ix2 f (col 2 u)) 2 (by simp) S128x64 c2 rfl rfl 128 rfl (ix2 f u) hi (by show 128 + u.val = 64 * 2 + u.val; omega)
  · exact concatenate_apply_piece (1 : Fin S128x512.rank) _ hc (ix2 f (col 3 u)) 3 (by simp) S128x64 c3 rfl rfl 192 rfl (ix2 f u) hi (by show 192 + u.val = 64 * 3 + u.val; omega)
  · exact concatenate_apply_piece (1 : Fin S128x512.rank) _ hc (ix2 f (col 4 u)) 4 (by simp) S128x64 c4 rfl rfl 256 rfl (ix2 f u) hi (by show 256 + u.val = 64 * 4 + u.val; omega)
  · exact concatenate_apply_piece (1 : Fin S128x512.rank) _ hc (ix2 f (col 5 u)) 5 (by simp) S128x64 c5 rfl rfl 320 rfl (ix2 f u) hi (by show 320 + u.val = 64 * 5 + u.val; omega)
  · exact concatenate_apply_piece (1 : Fin S128x512.rank) _ hc (ix2 f (col 6 u)) 6 (by simp) S128x64 c6 rfl rfl 384 rfl (ix2 f u) hi (by show 384 + u.val = 64 * 6 + u.val; omega)
  · exact concatenate_apply_piece (1 : Fin S128x512.rank) _ hc (ix2 f (col 7 u)) 7 (by simp) S128x64 c7 rfl rfl 448 rfl (ix2 f u) hi (by show 448 + u.val = 64 * 7 + u.val; omega)

/-- Blade `k` of the weights, loaded as a `[1, 128, 64]` block and viewed `[128, 64]`. -/
theorem ldw_at (x1 : Vec Ideal S8x128x64 .f32) (k : Fin 8)
    (inb : ∀ a, (![k.val, 0, 0] : Fin 3 → Nat) a + S1x128x64.size a ≤ S8x128x64.size a)
    (h : S1x128x64.ShapeCasts S128x64) (f : Fin 128) (u : Fin 64) :
    shapeCast S128x64 (View.ld x1 (Rect.unit (s := S8x128x64) ![k.val, 0, 0] S1x128x64.size inb)) h (ix2 f u)
      = x1 (ix3 k f u) := by
  refine (shapeCast_apply _ h (ix2 f u) (ix3 (0 : Fin 1) f u) (by
    rw [Shape.rowMajor_val_three, Shape.rowMajor_val_two]
    show (0 * 128 + f.val) * 64 + u.val = f.val * 64 + u.val
    omega)).trans ?_
  show x1 _ = x1 _
  congr 1
  funext a; apply Fin.ext
  match a with
  | ⟨0, _⟩ => show k.val + 1 * 0 = k.val; omega
  | ⟨1, _⟩ => show 0 + 1 * f.val = f.val; omega
  | ⟨2, _⟩ => show 0 + 1 * u.val = u.val; omega

/-- Blade `a` of the inputs, loaded as a `[1, 128, 128]` block and viewed `[128, 128]`. -/
theorem ldx_at (x0 : Vec Ideal S8x128x128 .f32) (a : Fin 8)
    (inb : ∀ d, (![a.val, 0, 0] : Fin 3 → Nat) d + S1x128x128.size d ≤ S8x128x128.size d)
    (h : S1x128x128.ShapeCasts S128x128) (b : Fin 128) (f : Fin 128) :
    shapeCast S128x128 (View.ld x0 (Rect.unit (s := S8x128x128) ![a.val, 0, 0] S1x128x128.size inb)) h (ix2 b f)
      = x0 (ix3 a b f) := by
  refine (shapeCast_apply _ h (ix2 b f) (ix3 (0 : Fin 1) b f) (by
    rw [Shape.rowMajor_val_three, Shape.rowMajor_val_two]
    show (0 * 128 + b.val) * 128 + f.val = b.val * 128 + f.val
    omega)).trans ?_
  show x0 _ = x0 _
  congr 1
  funext d; apply Fin.ext
  match d with
  | ⟨0, _⟩ => show a.val + 1 * 0 = a.val; omega
  | ⟨1, _⟩ => show 0 + 1 * b.val = b.val; omega
  | ⟨2, _⟩ => show 0 + 1 * f.val = f.val; omega

/-- Columns `64 o … 64 o + 63` of a `[128, 512]` block, stored as a `[1, 128, 64]` block. -/
theorem slice_at (A : FVec Ideal S128x512 .f32) (o : Fin 8) (off : Fin 2 → Nat) (hoff : off = ![0, 64 * o.val])
    (hs : S128x512.Slices off S128x64) (hc : S128x64.ShapeCasts S1x128x64) (z : Fin 1) (b : Fin 128) (u : Fin 64) :
    shapeCast S1x128x64 (extractStridedSlice S128x64 off A hs) hc (ix3 z b u) = A (ix2 b (col o u)) := by
  subst hoff
  have hz : z.val = 0 := by omega
  refine (shapeCast_apply _ hc (ix3 z b u) (ix2 b u) (by
    rw [Shape.rowMajor_val_three, Shape.rowMajor_val_two]
    show b.val * 64 + u.val = (z.val * 128 + b.val) * 64 + u.val
    rw [hz]; omega)).trans ?_
  refine extractStridedSlice_apply _ A hs (ix2 b u) (ix2 b (col o u)) fun a => ?_
  match a with
  | ⟨0, _⟩ => show b.val = 0 + b.val; omega
  | ⟨1, _⟩ => show 64 * o.val + u.val = 64 * o.val + u.val; rfl

/-- The same block under the sign written `0 - ·`. -/
theorem nldw_at (x1 : Vec Ideal S8x128x64 .f32) (k : Fin 8)
    (inb : ∀ a, (![k.val, 0, 0] : Fin 3 → Nat) a + S1x128x64.size a ≤ S8x128x64.size a)
    (h : S1x128x64.ShapeCasts S128x64) (f : Fin 128) (u : Fin 64) :
    subf (broadcast S128x64 (Scalar.ofBits (F := Ideal) .f32 0x00000000#32))
        (shapeCast S128x64 (View.ld x1 (Rect.unit (s := S8x128x64) ![k.val, 0, 0] S1x128x64.size inb)) h) (ix2 f u)
      = 0 - x1 (ix3 k f u) := by
  show Ideal.ofBits .f32 0x00000000#32 - shapeCast S128x64 _ h (ix2 f u) = _
  rw [Ideal.ofBits_zero_f32, ldw_at]

/-- Input blade `a`'s term of output entry `(o, b, u)`: the contraction over the features with the signed weight. -/
def term (x0 : Vec Ideal S8x128x128 .f32) (x1 : Vec Ideal S8x128x64 .f32) (a : Fin 8) (b : Fin 128) (o : Fin 8)
    (u : Fin 64) : EReal :=
  ∑ f : Fin 128, x0 (ix3 a b f) * signedW x1 a o f u

/-- One accumulation step read at row `b`, column `64 o + u`: the accumulator there plus blade `a`'s term, once the
    left operand is the inputs' blade `a` and the eight blocks of the right operand are the signed weight blocks. -/
theorem step_at (x0 : Vec Ideal S8x128x128 .f32) (x1 : Vec Ideal S8x128x64 .f32) (a : Fin 8)
    (A : FVec Ideal S128x512 .f32) (X : FVec Ideal S128x128 .f32)
    (c0 c1 c2 c3 c4 c5 c6 c7 : FVec Ideal S128x64 .f32)
    (hc : Shape.Concatenates ([(⟨S128x64, c0⟩ : (s : Shape) × (s.Idx → Ideal .f32)), ⟨S128x64, c1⟩, ⟨S128x64, c2⟩, ⟨S128x64, c3⟩,
      ⟨S128x64, c4⟩, ⟨S128x64, c5⟩, ⟨S128x64, c6⟩, ⟨S128x64, c7⟩].map (·.1)) S128x512 1)
    (ht : FTy.bits .bf16 < FTy.bits .f32)
    (hX : ∀ b f, X (ix2 b f) = x0 (ix3 a b f))
    (hW : ∀ o f u, (![c0, c1, c2, c3, c4, c5, c6, c7] o) (ix2 f u) = signedW x1 a o f u)
    (b : Fin 128) (o : Fin 8) (u : Fin 64) :
    addf A (matmul dot_S128x128_S128x512_S128x512_1_0_0_1_n_n none (truncf .bf16 X ht)
        (truncf .bf16 (concatenate S128x512 1 [⟨S128x64, c0⟩, ⟨S128x64, c1⟩, ⟨S128x64, c2⟩, ⟨S128x64, c3⟩, ⟨S128x64, c4⟩,
          ⟨S128x64, c5⟩, ⟨S128x64, c6⟩, ⟨S128x64, c7⟩] hc) ht)
        (constant (F := Ideal) S128x512 .f32 0x00000000#32)) (ix2 b (col o u))
      = A (ix2 b (col o u)) + term x0 x1 a b o u := by
  refine congrArg (A (ix2 b (col o u)) + ·) ?_
  refine (matmul_at X _ ht b (col o u)).trans ?_
  refine Finset.sum_congr rfl fun f _ => ?_
  rw [hX, concat_at, hW]

/-- A block of the right operand against the signed weight: the plain load where the sign is `+`, `0 - ·` of it where
    it is `-`; which one, and of which weight blade, is decided on the tables. -/
local macro "wblock" : tactic => `(tactic| first
  | (rw [if_neg (by decide)]; symm; exact (ldw_at _ _ _ _ _ _).symm)
  | (rw [if_pos (by decide)]; symm; exact (nldw_at _ _ _ _ _ _).symm))

/-- Blade 0's step, into the zero accumulator. -/
theorem pay2_at (x0 : Vec Ideal S8x128x128 .f32) (x1 : Vec Ideal S8x128x64 .f32) (b : Fin 128) (o : Fin 8) (u : Fin 64) :
    k0_pay2 (View.ld x1 r0_0) (View.ld x1 r0_1) (View.ld x1 r0_2) (View.ld x1 r0_3) (View.ld x1 r0_4) (View.ld x1 r0_5)
        (View.ld x1 r0_6) (View.ld x1 r0_7) (View.ld x0 r0_8) (ix2 b (col o u))
      = 0 + term x0 x1 0 b o u := by
  unfold k0_pay2
  refine (step_at x0 x1 0 _ _ _ _ _ _ _ _ _ _ _ _ (fun b f => ldx_at x0 0 _ _ b f) ?_ b o u).trans ?_
  · intro o f u
    unfold signedW
    fin_cases o <;> wblock
  · show Ideal.ofBits .f32 0x00000000#32 + _ = _
    rw [Ideal.ofBits_zero_f32]

/-- Blade 1's step. -/
theorem pay4_at (x0 : Vec Ideal S8x128x128 .f32) (x1 : Vec Ideal S8x128x64 .f32) (A : FVec Ideal S128x512 .f32)
    (E : Fin 128 → Fin 8 → Fin 64 → EReal) (hA : ∀ b o u, A (ix2 b (col o u)) = E b o u) (b : Fin 128) (o : Fin 8) (u : Fin 64) :
    k0_pay4 A (k0_pay3 (View.ld x1 r0_1)) (View.ld x1 r0_0) (View.ld x1 r0_4) (View.ld x1 r0_5) (View.ld x1 r0_2)
        (View.ld x1 r0_3) (View.ld x1 r0_7) (View.ld x1 r0_6) (View.ld x0 r0_9) (ix2 b (col o u))
      = E b o u + term x0 x1 1 b o u := by
  unfold k0_pay4 k0_pay3
  refine (step_at x0 x1 1 A _ _ _ _ _ _ _ _ _ _ _ (fun b f => ldx_at x0 1 _ _ b f) ?_ b o u).trans (by rw [hA])
  intro o f u
  unfold signedW
  fin_cases o <;> wblock

/-- Blade 2's step. -/
theorem pay7_at (x0 : Vec Ideal S8x128x128 .f32) (x1 : Vec Ideal S8x128x64 .f32) (A : FVec Ideal S128x512 .f32)
    (E : Fin 128 → Fin 8 → Fin 64 → EReal) (hA : ∀ b o u, A (ix2 b (col o u)) = E b o u) (b : Fin 128) (o : Fin 8) (u : Fin 64) :
    k0_pay7 A (k0_pay5 (View.ld x1 r0_2)) (k0_pay6 (View.ld x1 r0_4)) (View.ld x1 r0_0) (View.ld x1 r0_6) (View.ld x1 r0_1)
        (View.ld x1 r0_7) (View.ld x1 r0_3) (View.ld x1 r0_5) (View.ld x0 r0_10) (ix2 b (col o u))
      = E b o u + term x0 x1 2 b o u := by
  unfold k0_pay7 k0_pay5 k0_pay6
  refine (step_at x0 x1 2 A _ _ _ _ _ _ _ _ _ _ _ (fun b f => ldx_at x0 2 _ _ b f) ?_ b o u).trans (by rw [hA])
  intro o f u
  unfold signedW
  fin_cases o <;> wblock

/-- Blade 3's step. -/
theorem pay11_at (x0 : Vec Ideal S8x128x128 .f32) (x1 : Vec Ideal S8x128x64 .f32) (A : FVec Ideal S128x512 .f32)
    (E : Fin 128 → Fin 8 → Fin 64 → EReal) (hA : ∀ b o u, A (ix2 b (col o u)) = E b o u) (b : Fin 128) (o : Fin 8) (u : Fin 64) :
    k0_pay11 A (k0_pay8 (View.ld x1 r0_3)) (k0_pay9 (View.ld x1 r0_5)) (k0_pay10 (F := Ideal)) (View.ld x1 r0_6)
        (View.ld x1 r0_0) (View.ld x1 r0_7) (View.ld x1 r0_1) (View.ld x1 r0_2) (View.ld x1 r0_4) (View.ld x0 r0_11)
        (ix2 b (col o u))
      = E b o u + term x0 x1 3 b o u := by
  unfold k0_pay11 k0_pay8 k0_pay9 k0_pay10
  refine (step_at x0 x1 3 A _ _ _ _ _ _ _ _ _ _ _ (fun b f => ldx_at x0 3 _ _ b f) ?_ b o u).trans (by rw [hA])
  intro o f u
  unfold signedW
  fin_cases o <;> wblock

/-- Blade 4's step. -/
theorem pay13_at (x0 : Vec Ideal S8x128x128 .f32) (x1 : Vec Ideal S8x128x64 .f32) (A : FVec Ideal S128x512 .f32)
    (E : Fin 128 → Fin 8 → Fin 64 → EReal) (hA : ∀ b o u, A (ix2 b (col o u)) = E b o u) (b : Fin 128) (o : Fin 8) (u : Fin 64) :
    k0_pay13 A (k0_pay12 (View.ld x1 r0_4)) (View.ld x1 r0_2) (View.ld x1 r0_1) (View.ld x1 r0_7) (View.ld x1 r0_0)
        (View.ld x1 r0_6) (View.ld x1 r0_5) (View.ld x1 r0_3) (View.ld x0 r0_12) (ix2 b (col o u))
      = E b o u + term x0 x1 4 b o u := by
  unfold k0_pay13 k0_pay12
  refine (step_at x0 x1 4 A _ _ _ _ _ _ _ _ _ _ _ (fun b f => ldx_at x0 4 _ _ b f) ?_ b o u).trans (by rw [hA])
  intro o f u
  unfold signedW
  fin_cases o <;> wblock

/-- Blade 5's step. -/
theorem pay15_at (x0 : Vec Ideal S8x128x128 .f32) (x1 : Vec Ideal S8x128x64 .f32) (A : FVec Ideal S128x512 .f32)
    (E : Fin 128 → Fin 8 → Fin 64 → EReal) (hA : ∀ b o u, A (ix2 b (col o u)) = E b o u) (b : Fin 128) (o : Fin 8) (u : Fin 64) :
    k0_pay15 A (k0_pay14 (View.ld x1 r0_5)) (Scalar.ofBits (F := Ideal) .f32 0x00000000#32) (View.ld x1 r0_3) (View.ld x1 r0_7)
        (View.ld x1 r0_1) (View.ld x1 r0_6) (View.ld x1 r0_0) (View.ld x1 r0_4) (View.ld x1 r0_2) (View.ld x0 r0_13)
        (ix2 b (col o u))
      = E b o u + term x0 x1 5 b o u := by
  unfold k0_pay15 k0_pay14
  refine (step_at x0 x1 5 A _ _ _ _ _ _ _ _ _ _ _ (fun b f => ldx_at x0 5 _ _ b f) ?_ b o u).trans (by rw [hA])
  intro o f u
  unfold signedW
  fin_cases o <;> wblock

/-- Blade 6's step. -/
theorem pay16_at (x0 : Vec Ideal S8x128x128 .f32) (x1 : Vec Ideal S8x128x64 .f32) (A : FVec Ideal S128x512 .f32)
    (E : Fin 128 → Fin 8 → Fin 64 → EReal) (hA : ∀ b o u, A (ix2 b (col o u)) = E b o u) (b : Fin 128) (o : Fin 8) (u : Fin 64) :
    k0_pay16 A (View.ld x1 r0_6) (View.ld x1 r0_7) (View.ld x1 r0_3) (View.ld x1 r0_2) (View.ld x1 r0_5) (View.ld x1 r0_4)
        (View.ld x1 r0_0) (View.ld x1 r0_1) (View.ld x0 r0_14) (ix2 b (col o u))
      = E b o u + term x0 x1 6 b o u := by
  unfold k0_pay16
  refine (step_at x0 x1 6 A _ _ _ _ _ _ _ _ _ _ _ (fun b f => ldx_at x0 6 _ _ b f) ?_ b o u).trans (by rw [hA])
  intro o f u
  unfold signedW
  fin_cases o <;> wblock

/-- Blade 7's step: the final accumulator. -/
theorem pay19_at (x0 : Vec Ideal S8x128x128 .f32) (x1 : Vec Ideal S8x128x64 .f32) (A : FVec Ideal S128x512 .f32)
    (E : Fin 128 → Fin 8 → Fin 64 → EReal) (hA : ∀ b o u, A (ix2 b (col o u)) = E b o u) (b : Fin 128) (o : Fin 8) (u : Fin 64) :
    k0_pay19 A (k0_pay17 (View.ld x0 r0_15)) (k0_pay18 (View.ld x1 r0_7) (View.ld x1 r0_6) (View.ld x1 r0_5) (View.ld x1 r0_4)
        (View.ld x1 r0_3) (View.ld x1 r0_2) (View.ld x1 r0_1) (View.ld x1 r0_0)) (ix2 b (col o u))
      = E b o u + term x0 x1 7 b o u := by
  unfold k0_pay19 k0_pay17 k0_pay18
  refine (step_at x0 x1 7 A _ _ _ _ _ _ _ _ _ _ _ (fun b f => ldx_at x0 7 _ _ b f) ?_ b o u).trans (by rw [hA])
  intro o f u
  unfold signedW
  fin_cases o <;> wblock

/-- The eight terms, added in the body's order onto zero, are the sum over the input blades. -/
theorem bladeSum_at (x0 : Vec Ideal S8x128x128 .f32) (x1 : Vec Ideal S8x128x64 .f32) (b : Fin 128) (o : Fin 8) (u : Fin 64) :
    0 + term x0 x1 0 b o u + term x0 x1 1 b o u + term x0 x1 2 b o u + term x0 x1 3 b o u + term x0 x1 4 b o u
        + term x0 x1 5 b o u + term x0 x1 6 b o u + term x0 x1 7 b o u
      = bladeSum x0 x1 (ix3 o b u) := by
  show _ = ∑ a : Fin 8, term x0 x1 a b o u
  rw [Fin.sum_univ_eight, zero_add]

/-- Output blade `o`'s stored block — columns `64 o … 64 o + 63` of a final accumulator `B` that holds the blade sums — is
    the blade sum at every index of the block's place in the result. -/
theorem piece_of (x0 : Vec Ideal S8x128x128 .f32) (x1 : Vec Ideal S8x128x64 .f32) (B : FVec Ideal S128x512 .f32)
    (hB : ∀ b o u, B (ix2 b (col o u)) = bladeSum x0 x1 (ix3 o b u))
    (o : Fin 8) (off : Fin 2 → Nat) (hoff : off = ![0, 64 * o.val])
    (hs : S128x512.Slices off S128x64) (hc : S128x64.ShapeCasts S1x128x64)
    (inb : ∀ a, (![o.val, 0, 0] : Fin 3 → Nat) a + S1x128x64.size a ≤ S8x128x64.size a) (x : S1x128x64.Idx) :
    shapeCast S1x128x64 (extractStridedSlice S128x64 off B hs) hc x
      = bladeSum x0 x1 ((Rect.unit (s := S8x128x64) ![o.val, 0, 0] S1x128x64.size inb).emb x) := by
  obtain ⟨z, b, u, rfl⟩ : ∃ (z : Fin 1) (b : Fin 128) (u : Fin 64), x = ix3 z b u := ⟨x 0, x 1, x 2, eq_ix3 x⟩
  have hz : z.val = 0 := by omega
  rw [slice_at B o off hoff hs hc z b u, hB]
  congr 1
  funext a; apply Fin.ext
  match a with
  | ⟨0, _⟩ => show o.val = o.val + 1 * z.val; omega
  | ⟨1, _⟩ => show b.val = 0 + 1 * b.val; omega
  | ⟨2, _⟩ => show u.val = 0 + 1 * u.val; omega

/-- The result block after the body, as one function of the two input blocks. -/
theorem body_value (x0 : Vec Ideal S8x128x128 .f32) (x1 : Vec Ideal S8x128x64 .f32) :
    out0_2 (F := Ideal) x0 x1 = Cert.GeomProduct.bladeSum x0 x1 := by
  -- the accumulator after each of the eight steps, at row `b` and column `64 o + u`
  have h0 := pay2_at x0 x1
  have h1 := pay4_at x0 x1 _ _ h0
  have h2 := pay7_at x0 x1 _ _ h1
  have h3 := pay11_at x0 x1 _ _ h2
  have h4 := pay13_at x0 x1 _ _ h3
  have h5 := pay15_at x0 x1 _ _ h4
  have h6 := pay16_at x0 x1 _ _ h5
  have h7 := pay19_at x0 x1 _ _ h6
  have hB := fun b o u => (h7 b o u).trans (bladeSum_at x0 x1 b o u)
  -- the eight stored blocks are blocks of the blade sum, and they cover the result
  funext y
  unfold out0_2
  refine View.canon_apply_of_pieces (Val := Elt Ideal) (S := S8x128x64) (e := .f32) (bladeSum x0 x1) _ ?_ y
    (cover0_2 _ _ _ _ _ _ _ _ y)
  intro p hp
  rcases List.mem_cons.mp hp with rfl | hp
  · intro x
    show k0_pay1 (F := Ideal) (k0_pay27 _ _ _) x = bladeSum x0 x1 (r0_7.emb x)
    unfold k0_pay1 k0_pay27
    exact piece_of x0 x1 _ hB 7 ![0, 448] rfl slices_S128x512_o0_448_S128x64 shapeCasts_S128x64_S1x128x64
      inb_S8x128x64_S1x128x64_7_0_0 x
  rcases List.mem_cons.mp hp with rfl | hp
  · intro x
    show k0_pay26 (F := Ideal) _ _ _ x = bladeSum x0 x1 (r0_6.emb x)
    unfold k0_pay26
    exact piece_of x0 x1 _ hB 6 ![0, 384] rfl slices_S128x512_o0_384_S128x64 shapeCasts_S128x64_S1x128x64
      inb_S8x128x64_S1x128x64_6_0_0 x
  rcases List.mem_cons.mp hp with rfl | hp
  · intro x
    show k0_pay25 (F := Ideal) _ _ _ x = bladeSum x0 x1 (r0_5.emb x)
    unfold k0_pay25
    exact piece_of x0 x1 _ hB 5 ![0, 320] rfl slices_S128x512_o0_320_S128x64 shapeCasts_S128x64_S1x128x64
      inb_S8x128x64_S1x128x64_5_0_0 x
  rcases List.mem_cons.mp hp with rfl | hp
  · intro x
    show k0_pay24 (F := Ideal) _ _ _ x = bladeSum x0 x1 (r0_4.emb x)
    unfold k0_pay24
    exact piece_of x0 x1 _ hB 4 ![0, 256] rfl slices_S128x512_o0_256_S128x64 shapeCasts_S128x64_S1x128x64
      inb_S8x128x64_S1x128x64_4_0_0 x
  rcases List.mem_cons.mp hp with rfl | hp
  · intro x
    show k0_pay23 (F := Ideal) _ _ _ x = bladeSum x0 x1 (r0_3.emb x)
    unfold k0_pay23
    exact piece_of x0 x1 _ hB 3 ![0, 192] rfl slices_S128x512_o0_192_S128x64 shapeCasts_S128x64_S1x128x64
      inb_S8x128x64_S1x128x64_3_0_0 x
  rcases List.mem_cons.mp hp with rfl | hp
  · intro x
    show k0_pay22 (F := Ideal) _ _ _ x = bladeSum x0 x1 (r0_2.emb x)
    unfold k0_pay22
    exact piece_of x0 x1 _ hB 2 ![0, 128] rfl slices_S128x512_o0_128_S128x64 shapeCasts_S128x64_S1x128x64
      inb_S8x128x64_S1x128x64_2_0_0 x
  rcases List.mem_cons.mp hp with rfl | hp
  · intro x
    show k0_pay21 (F := Ideal) _ _ _ x = bladeSum x0 x1 (r0_1.emb x)
    unfold k0_pay21
    exact piece_of x0 x1 _ hB 1 ![0, 64] rfl slices_S128x512_o0_64_S128x64 shapeCasts_S128x64_S1x128x64
      inb_S8x128x64_S1x128x64_1_0_0 x
  rcases List.mem_cons.mp hp with rfl | hp
  · intro x
    show k0_pay20 (F := Ideal) _ _ _ x = bladeSum x0 x1 (r0_0.emb x)
    unfold k0_pay20
    exact piece_of x0 x1 _ hB 0 ![0, 0] rfl slices_S128x512_o0_0_S128x64 shapeCasts_S128x64_S1x128x64
      inb_S8x128x64_S1x128x64_0_0_0 x
  exact absurd hp List.not_mem_nil

end Cert.GeomProduct.Ker

end
-- ==== Proof.KerRun.lean ====
/-
  The kernel's run with its result named: the grid has one point and every window's block is its whole array, so the
  result array after the run is what the body leaves in the result block, `Blades.bladeSum` of the two argument
  arrays (`KerBody.body_value`).
-/
import proofs.«127609_j60069412602337_1_alg».proof.Proof.Gen.KernelIdeal.Value
import proofs.«127609_j60069412602337_1_alg».proof.Proof.KerBody
import Idealize.ShloMosaic.Lib.Pipeline.Value

noncomputable section

namespace Cert.GeomProduct.Ker

open Cert.KernelIdeal Cert.KernelIdeal.Gen Idealize.ShloMosaic Idealize.ShloMosaic.TcCoe Idealize.SL.Sem
open Idealize.ShloMosaic.Pipeline (Dat)
open Idealize.ShloMosaic.ValueIdx

variable (m : (ℓ : Loc nD τ sig) → Buf (Elt Ideal) ℓ) (ρ : Dev nD → PrngReg)

/-- The one grid point's block indices: every window sits at block `(0, 0, 0)`. -/
theorem idx_facts : ∀ t : Fin cfg0.N, (∀ a : Fin 3, win0_0.index t a = 0) ∧ (∀ a : Fin 3, win0_1.index t a = 0)
    ∧ (∀ a : Fin 3, win0_2.index t a = 0) :=
  (by decide +kernel : ∀ t : Fin grid0.N, (∀ a : Fin 3, win0_0.index t a = 0) ∧ (∀ a : Fin 3, win0_1.index t a = 0)
    ∧ (∀ a : Fin 3, win0_2.index t a = 0))

/-- The block of the first argument at the point is the argument array. -/
theorem iblk0_eq (c : Dev nD) (t : Fin cfg0.N) (y : S8x128x128.Idx) : iblk m c 0 t y = V m c main_arg0 y := by
  show V m c main_arg0 (((cfg0.win 0).blk t).view.emb y) = V m c main_arg0 y
  refine congrArg _ (funext fun a => Fin.ext ?_)
  obtain ⟨e0, -, -⟩ := idx_facts t
  match a with
  | ⟨0, _⟩ => show win0_0.index t (0 : Fin 3) * 8 + 1 * (y 0).val = (y 0).val; rw [e0 0]; omega
  | ⟨1, _⟩ => show win0_0.index t (1 : Fin 3) * 128 + 1 * (y 1).val = (y 1).val; rw [e0 1]; omega
  | ⟨2, _⟩ => show win0_0.index t (2 : Fin 3) * 128 + 1 * (y 2).val = (y 2).val; rw [e0 2]; omega

/-- The block of the second argument at the point is the argument array. -/
theorem iblk1_eq (c : Dev nD) (t : Fin cfg0.N) (y : S8x128x64.Idx) : iblk m c 1 t y = V m c main_arg1 y := by
  show V m c main_arg1 (((cfg0.win 1).blk t).view.emb y) = V m c main_arg1 y
  refine congrArg _ (funext fun a => Fin.ext ?_)
  obtain ⟨-, e1, -⟩ := idx_facts t
  match a with
  | ⟨0, _⟩ => show win0_1.index t (0 : Fin 3) * 8 + 1 * (y 0).val = (y 0).val; rw [e1 0]; omega
  | ⟨1, _⟩ => show win0_1.index t (1 : Fin 3) * 128 + 1 * (y 1).val = (y 1).val; rw [e1 1]; omega
  | ⟨2, _⟩ => show win0_1.index t (2 : Fin 3) * 64 + 1 * (y 2).val = (y 2).val; rw [e1 2]; omega

/-- What the point writes back is the blade sum of the argument arrays, read through the (whole) result block. -/
theorem flushed_eq (c : Dev nD) (t : Fin cfg0.N) :
    (dats m 0 c).flushed 2 t
      = ((cfg0.win 2).blk t).view.read (Elt Ideal) (Cert.GeomProduct.bladeSum (V m c main_arg0) (V m c main_arg1)) := by
  rw [Cert.KernelIdeal.Value.flushed2, body_value]
  have h0 : (iblk m c 0 t : S8x128x128.Idx → EReal) = V m c main_arg0 := funext (iblk0_eq m c t)
  have h1 : (iblk m c 1 t : S8x128x64.Idx → EReal) = V m c main_arg1 := funext (iblk1_eq m c t)
  rw [h0, h1]
  funext j
  show Cert.GeomProduct.bladeSum (V m c main_arg0) (V m c main_arg1) j
    = Cert.GeomProduct.bladeSum (V m c main_arg0) (V m c main_arg1) (((cfg0.win 2).blk t).view.emb j)
  refine congrArg _ (funext fun a => Fin.ext ?_)
  obtain ⟨-, -, e2⟩ := idx_facts t
  match a with
  | ⟨0, _⟩ => show (j 0).val = win0_2.index t (0 : Fin 3) * 8 + 1 * (j 0).val; rw [e2 0]; omega
  | ⟨1, _⟩ => show (j 1).val = win0_2.index t (1 : Fin 3) * 128 + 1 * (j 1).val; rw [e2 1]; omega
  | ⟨2, _⟩ => show (j 2).val = win0_2.index t (2 : Fin 3) * 64 + 1 * (j 2).val; rw [e2 2]; omega

/-- An index of the result array is in the point's block iff each coordinate is in the block's range on its axis. -/
theorem mem_blk (t : Fin cfg0.N) (i : S8x128x64.Idx) :
    i ∈ ((cfg0.win 2).blk t).view.set ↔ ∀ a : Fin 3, win0_2.index t a * S8x128x64.size a ≤ (i a).val ∧ (i a).val < win0_2.index t a * S8x128x64.size a + S8x128x64.size a := by
  show i ∈ ((View.whole main_v0).slice (win0_2.rect t)).set ↔ _
  rw [View.set_slice_whole, Rect.mem_set_unit]
  exact Iff.rfl

/-- The one block covers the result array. -/
theorem cover (i : S8x128x64.Idx) : ∃ t : Fin cfg0.N, (cfg0.win 2).flush t = true ∧ i ∈ ((cfg0.win 2).blk t).view.set := by
  refine ⟨⟨0, by decide⟩, flush0_2 _, ?_⟩
  rw [mem_blk]
  obtain ⟨-, -, e2⟩ := idx_facts ⟨0, by decide⟩
  intro a
  match a with
  | ⟨0, _⟩ => show win0_2.index _ (0 : Fin 3) * 8 ≤ (i 0).val ∧ (i 0).val < win0_2.index _ (0 : Fin 3) * 8 + 8; rw [e2 0]; have hi : (i 0).val < 8 := (i 0).isLt; omega
  | ⟨1, _⟩ => show win0_2.index _ (1 : Fin 3) * 128 ≤ (i 1).val ∧ (i 1).val < win0_2.index _ (1 : Fin 3) * 128 + 128; rw [e2 1]; have hi : (i 1).val < 128 := (i 1).isLt; omega
  | ⟨2, _⟩ => show win0_2.index _ (2 : Fin 3) * 64 ≤ (i 2).val ∧ (i 2).val < win0_2.index _ (2 : Fin 3) * 64 + 64; rw [e2 2]; have hi : (i 2).val < 64 := (i 2).isLt; omega

/-- The result array after the run. -/
theorem final (c : Dev nD) :
    (dats m 0 c).arrAt 2 cfg0.N
      = Cert.GeomProduct.bladeSum (m ((c : Thread nD τ).loc main_arg0)) (m ((c : Thread nD τ).loc main_arg1)) :=
  (dats m 0 c).arrAt_eq_of_cover 2 (Cert.GeomProduct.bladeSum (V m c main_arg0) (V m c main_arg1))
    (fun t _ => flushed_eq m c t) cover

/-- Every weakly fair execution of the kernel's program terminates with the result array at the blade sum of the
    argument arrays and the arguments unchanged. -/
theorem run : θ_run defs (onTc (τ := τ) (main (F := Ideal))) ⟨m, fun _ => 0, ρ⟩ fun r => ∀ c : Dev nD,
      r.2.mem ((c : Thread nD τ).loc main_v0)
        = Cert.GeomProduct.bladeSum (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩)
    (Cert.KernelIdeal.Value.run_blocks m ρ)

end Cert.GeomProduct.Ker

end
-- ==== Proof.RefIndexOps.lean ====
/-
  The reference's two gathers and its accumulating scatter, read at an index.

  `x[A]` along the blade axis of `x : [8, 128, 128]` (and of `w : [8, 128, 64]`) at 64 start indices: result entry
  `(p, r, c)` is the operand at `(A p, r, c)`, the start index read signed and clamped into `[0, 7]`.
  The scatter-add of `upd : [64, 128, 128, 64]` into `[8, 128, 128, 64]` along the blade axis: entry `(o, b, f, u)` is the
  operand's entry plus the sum of `upd (p, b, f, u)` over the `p` whose scatter index, read signed, is `o`.
-/
import proofs.«127609_j60069412602337_1_alg».proof.ReferenceIdeal
import Idealize.ShloMosaic.Lib.ValueIdx
import Idealize.ShloMosaic.PureOps.Ideal

noncomputable section

open scoped BigOperators

namespace Cert.GeomProduct.RefOps

open Idealize.ShloMosaic Idealize.ShloMosaic.ValueIdx Cert.ReferenceIdeal

/-- An update index lands on operand index `i` exactly when, on every axis, the window's start plus the window
    coordinate is `i`'s coordinate (a sum that leaves the operand on some axis lands nowhere). -/
theorem resultIdx?_eq_some_iff {s si u : Shape} (d : ScatterDims s si u) {w : Nat} (j : u.Idx) (idx : IVec si w)
    (i : s.Idx) : d.resultIdx? j idx = some i ↔ ∀ a, d.start j idx a + (d.window j a : ℤ) = ((i a).val : ℤ) := by
  unfold ScatterDims.resultIdx?
  split
  · rename_i h
    rw [Option.some.injEq]
    constructor
    · intro hf a
      have h0 := (h a).1
      rw [← hf]
      exact (Int.toNat_of_nonneg h0).symm
    · intro hall
      funext a
      refine Fin.ext ?_
      show (d.start j idx a + (d.window j a : ℤ)).toNat = (i a).val
      rw [hall a]
      exact Int.toNat_natCast _
  · rename_i h
    constructor
    · intro hf; cases hf
    · intro hall
      exfalso
      apply h
      intro a
      rw [hall a]
      exact ⟨Int.natCast_nonneg _, by exact_mod_cast (i a).isLt⟩

variable [Cert.ReferenceIdeal.Facts]

local notation "dX" => gather_S8x128x128_S64x1_S64x128x128_12_0_n_n_0_1_1128128
local notation "dW" => gather_S8x128x64_S64x1_S64x128x64_12_0_n_n_0_1_112864
local notation "dS" => scatter_S8x128x128x64_S64x1_S64x128x128x64_123_0_0_1

/-- The gather of `x`'s blades: entry `(p, r, c)` is `x` at blade `idx p` (clamped), same row and column. -/
theorem gather_x_apply {α : Type} (x : S8x128x128.Idx → α) (idx : IVec S64x1 32) (p : Fin 64) (r c : Fin 128) :
    Host.gather gather_S8x128x128_S64x1_S64x128x128_12_0_n_n_0_1_1128128 x idx (ix3 p r c)
      = x (ix3 (⟨min (idx (ix2 p (0 : Fin 1))).toInt.toNat 7, by omega⟩ : Fin 8) r c) := by
  unfold Host.gather
  congr 1
  funext a
  refine Fin.ext ?_
  match a with
  | ⟨0, _⟩ =>
    -- the blade axis: collapsed (offset 0), no batching, the start the clamped start index
    show GatherDims.start _ _ idx _ + GatherDims.batchCoord _ _ _ + GatherDims.offCoord _ _ _ = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (⟨0, _⟩ : Fin S8x128x128.rank) ∈ (dX).startIndexMap from List.mem_singleton.mpr rfl)]
    have hsi : (dX).siIdx (ix3 p r c) ⟨List.idxOf (⟨0, by decide⟩ : Fin S8x128x128.rank) (dX).startIndexMap,
        List.idxOf_lt_length_iff.2 (List.mem_singleton.mpr rfl)⟩ = ix2 p (0 : Fin 1) := by
      funext k; refine Fin.ext ?_
      match k with
      | ⟨0, _⟩ => rfl
      | ⟨1, _⟩ => rfl
    rw [hsi]
    rfl
  | ⟨1, _⟩ =>
    -- a window axis: start 0, no batching, the offset the result's coordinate
    show (0 : Nat) + 0 + r.val = r.val
    omega
  | ⟨2, _⟩ =>
    show (0 : Nat) + 0 + c.val = c.val
    omega

/-- The gather of `w`'s blades. -/
theorem gather_w_apply {α : Type} (x : S8x128x64.Idx → α) (idx : IVec S64x1 32) (p : Fin 64) (r : Fin 128) (c : Fin 64) :
    Host.gather gather_S8x128x64_S64x1_S64x128x64_12_0_n_n_0_1_112864 x idx (ix3 p r c)
      = x (ix3 (⟨min (idx (ix2 p (0 : Fin 1))).toInt.toNat 7, by omega⟩ : Fin 8) r c) := by
  unfold Host.gather
  congr 1
  funext a
  refine Fin.ext ?_
  match a with
  | ⟨0, _⟩ =>
    -- the blade axis: collapsed (offset 0), no batching, the start the clamped start index
    show GatherDims.start _ _ idx _ + GatherDims.batchCoord _ _ _ + GatherDims.offCoord _ _ _ = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (⟨0, _⟩ : Fin S8x128x64.rank) ∈ (dW).startIndexMap from List.mem_singleton.mpr rfl)]
    have hsi : (dW).siIdx (ix3 p r c) ⟨List.idxOf (⟨0, by decide⟩ : Fin S8x128x64.rank) (dW).startIndexMap,
        List.idxOf_lt_length_iff.2 (List.mem_singleton.mpr rfl)⟩ = ix2 p (0 : Fin 1) := by
      funext k; refine Fin.ext ?_
      match k with
      | ⟨0, _⟩ => rfl
      | ⟨1, _⟩ => rfl
    rw [hsi]
    rfl
  | ⟨1, _⟩ =>
    -- a window axis: start 0, no batching, the offset the result's coordinate
    show (0 : Nat) + 0 + r.val = r.val
    omega
  | ⟨2, _⟩ =>
    show (0 : Nat) + 0 + c.val = c.val
    omega

/-- The scatter's window start on the blade axis for update `(p, b, f, u)`: scatter index `p`, read signed. -/
theorem scatter_start_blade (idx : IVec S64x1 32) (p : Fin 64) (b f : Fin 128) (u : Fin 64) :
    ScatterDims.start dS (ix4 p b f u) idx ⟨0, by decide⟩ = (idx (ix2 p (0 : Fin 1))).toInt := by
  unfold ScatterDims.start
  rw [dif_pos (show (⟨0, by decide⟩ : Fin S8x128x128x64.rank) ∈ (dS).scatterDimsToOperandDims from List.mem_singleton.mpr rfl)]
  have hsi : (dS).siIdx (ix4 p b f u) ⟨List.idxOf (⟨0, by decide⟩ : Fin S8x128x128x64.rank) (dS).scatterDimsToOperandDims,
      List.idxOf_lt_length_iff.2 (List.mem_singleton.mpr rfl)⟩ = ix2 p (0 : Fin 1) := by
    funext k; refine Fin.ext ?_
    match k with
    | ⟨0, _⟩ => rfl
    | ⟨1, _⟩ => rfl
  rw [hsi]

/-- Update `(p, b', f', u')` lands on `(o, b, f, u)` exactly when scatter index `p`, read signed, is `o` and the
    three window coordinates agree: on the blade axis the start is the scatter index and the window coordinate `0`
    (the axis is inserted), on the other three the start is `0` and the window coordinate the update's. -/
theorem scatter_lands_iff (idx : IVec S64x1 32) (p : Fin 64) (b' f' : Fin 128) (u' : Fin 64) (o : Fin 8) (b f : Fin 128)
    (u : Fin 64) :
    ScatterDims.resultIdx? dS (ix4 p b' f' u') idx = some (ix4 o b f u)
      ↔ (idx (ix2 p (0 : Fin 1))).toInt = (o.val : ℤ) ∧ b' = b ∧ f' = f ∧ u' = u := by
  rw [resultIdx?_eq_some_iff]
  constructor
  · intro h
    have h0 := h ⟨0, by decide⟩
    rw [scatter_start_blade] at h0
    have h0' : (idx (ix2 p (0 : Fin 1))).toInt + ((0 : ℕ) : ℤ) = (o.val : ℤ) := h0
    have h1 : (0 : ℤ) + ((b'.val : ℕ) : ℤ) = (b.val : ℤ) := h ⟨1, by decide⟩
    have h2 : (0 : ℤ) + ((f'.val : ℕ) : ℤ) = (f.val : ℤ) := h ⟨2, by decide⟩
    have h3 : (0 : ℤ) + ((u'.val : ℕ) : ℤ) = (u.val : ℤ) := h ⟨3, by decide⟩
    exact ⟨by omega, Fin.ext (by omega), Fin.ext (by omega), Fin.ext (by omega)⟩
  · rintro ⟨h0, rfl, rfl, rfl⟩ a
    match a with
    | ⟨0, _⟩ =>
      rw [scatter_start_blade]
      show (idx (ix2 p (0 : Fin 1))).toInt + ((0 : ℕ) : ℤ) = (o.val : ℤ)
      omega
    | ⟨1, _⟩ =>
      show (0 : ℤ) + ((b'.val : ℕ) : ℤ) = (b'.val : ℤ)
      omega
    | ⟨2, _⟩ =>
      show (0 : ℤ) + ((f'.val : ℕ) : ℤ) = (f'.val : ℤ)
      omega
    | ⟨3, _⟩ =>
      show (0 : ℤ) + ((u'.val : ℕ) : ℤ) = (u'.val : ℤ)
      omega

/-- The scatter-add along the blade axis at an index. -/
theorem scatterAdd_apply (x : FVec Ideal S8x128x128x64 .f32) (idx : IVec S64x1 32) (upd : FVec Ideal S64x128x128x64 .f32)
    (o : Fin 8) (b f : Fin 128) (u : Fin 64) :
    Host.scatterAdd scatter_S8x128x128x64_S64x1_S64x128x128x64_123_0_0_1 x idx upd (ix4 o b f u)
      = x (ix4 o b f u) + ∑ p ∈ Finset.univ.filter (fun p : Fin 64 => (idx (ix2 p (0 : Fin 1))).toInt = (o.val : ℤ)),
          upd (ix4 p b f u) := by
  show x (ix4 o b f u) + ∑ j ∈ Finset.univ.filter (fun j => ScatterDims.resultIdx? dS j idx = some (ix4 o b f u)), upd j = _
  congr 1
  symm
  -- the updates landing on `(o, b, f, u)` are the `(p, b, f, u)` with scatter index `p` equal to `o`: re-index by `p`
  refine Finset.sum_bij (fun p _ => ix4 p b f u) ?_ ?_ ?_ ?_
  · intro p hp
    rw [Finset.mem_filter] at hp ⊢
    exact ⟨Finset.mem_univ _, (scatter_lands_iff idx p b f u o b f u).2 ⟨hp.2, rfl, rfl, rfl⟩⟩
  · intro p _ p' _ h
    exact congrFun h ⟨0, by decide⟩
  · intro j hj
    rw [Finset.mem_filter] at hj
    have hj2 := hj.2
    rw [eq_ix4 j] at hj2
    obtain ⟨h0, h1, h2, h3⟩ := (scatter_lands_iff idx _ _ _ _ o b f u).1 hj2
    refine ⟨j 0, ?_, ?_⟩
    · exact Finset.mem_filter.2 ⟨Finset.mem_univ _, h0⟩
    · have hj4 := eq_ix4 j
      rw [h1, h2, h3] at hj4
      exact hj4.symm
  · intro p _
    rfl

end Cert.GeomProduct.RefOps

end
-- ==== Proof.RefRun.lean ====
/-
  The reference program's run with its result named: the 32 host operations listed, and every weakly fair execution
  terminating with the result buffer at `refTerm` of the two argument arrays — the operations composed — and the
  arguments unchanged.  `refTerm`: the four tables (signs, input blade, weight blade, output blade of the 64 blade
  pairs); the start indices `startIdx t` (the table, a negative entry moved up by 8: none is negative, the mask is all
  false); `x` and `w` gathered at the pairs' blades; the signed products, broadcast to [64, 128, 128, 64]; the
  scatter-add of the pairs into zeros along the output blade; the sum over the feature axis.
-/
import proofs.«127609_j60069412602337_1_alg».proof.Proof.Gen.ReferenceIdeal
import Idealize.ShloMosaic.Lib.StableHlo.Run

noncomputable section

namespace Cert.GeomProduct.Ref

open Cert.ReferenceIdeal Cert.ReferenceIdeal.Gen Idealize.ShloMosaic Idealize.ShloMosaic.TcCoe Idealize.SL.Sem Idealize.ShloMosaic.StableHlo

variable {F : FTy → Type} [FloatOps F]

/-- The start indices of a gather or scatter from a table of 64 words: an entry under zero moved up by 8 (the mask
    is all false: every entry is kept), as a [64, 1] array. -/
def startIdx (t : Fin 64 → BitVec 32) : IVec S64x1 32 :=
  broadcastInDim S64x1 ![0] bcast_S64_S64x1_0
    (select (constantI S64 1 0#1)
      (addi (fun i => t (S64.rowMajor i)) (broadcastInDim S64 ![] bcast_S_S64 (constantI S_ 32 8#32)))
      fun i => t (S64.rowMajor i))

/-- The signed first factor, [64, 128, 128, 1]: the pair's sign times `x` at the pair's input blade. -/
def signedX (x : FVec F S8x128x128 .f32) : FVec F S64x128x128x1 .f32 :=
  mulf
    (broadcastInDim S64x128x128x1 ![0, 1, 2, 3] bcast_S64x1x1x1_S64x128x128x1_0_1_2_3
      (broadcastInDim S64x1x1x1 ![0] bcast_S64_S64x1x1x1_0 fun i => FloatOps.ofBits FTy.f32 (lit0 (S64.rowMajor i))))
    (broadcastInDim S64x128x128x1 ![0, 1, 2] bcast_S64x128x128_S64x128x128x1_0_1_2
      (Host.gather gather_S8x128x128_S64x1_S64x128x128_12_0_n_n_0_1_1128128 x (startIdx lit1)))

/-- The second factor, [64, 128, 128, 64]: `w` at the pair's weight blade, the same for every batch row. -/
def gatheredW (w : FVec F S8x128x64 .f32) : FVec F S64x128x128x64 .f32 :=
  broadcastInDim S64x128x128x64 ![0, 1, 2, 3] bcast_S64x1x128x64_S64x128x128x64_0_1_2_3
    (broadcastInDim S64x1x128x64 ![0, 2, 3] bcast_S64x128x64_S64x1x128x64_0_2_3
      (Host.gather gather_S8x128x64_S64x1_S64x128x64_12_0_n_n_0_1_112864 w (startIdx lit2)))

/-- The reference's operations composed. -/
def refTerm (x : FVec F S8x128x128 .f32) (w : FVec F S8x128x64 .f32) : FVec F S8x128x64 .f32 :=
  Host.reduceAdd
    (Host.scatterAdd scatter_S8x128x128x64_S64x1_S64x128x128x64_123_0_0_1
      (broadcastInDim S8x128x128x64 ![] bcast_S_S8x128x128x64 (constant S_ FTy.f32 0x00000000#32))
      (broadcastInDim S64x1 ![0] bcast_S64_S64x1_0 fun i => lit3 (S64.rowMajor i))
      (mulf
        (broadcastInDim S64x128x128x64 ![0, 1, 2, 3] bcast_S64x128x128x1_S64x128x128x64_0_1_2_3 (signedX x))
        (gatheredW w)))
    (constant S_ FTy.f32 0x00000000#32) reducesTo_S8x128x128x64_S8x128x64_d2 h_S_

/-- The reference's 32 operations, in order. -/
abbrev ops : List (HloOp τ sig (Elt F)) :=
  [ nullary main_cst (fun i => FloatOps.ofBits .f32 (lit0 (S64.rowMajor i))),
    nullary main_c (fun i => lit1 (S64.rowMajor i)),
    nullary main_c_0 (constantI S64 1 0#1),
    nullary main_c_1 (fun i => lit2 (S64.rowMajor i)),
    nullary main_c_2 (constantI S64 1 0#1),
    nullary main_c_3 (fun i => lit3 (S64.rowMajor i)),
    unary main_cst main_v0 (broadcastInDim S64x1x1x1 ![0] bcast_S64_S64x1x1x1_0 : (⟨S64, .f32⟩ : BufTy).Contents (Elt F) → (⟨S64x1x1x1, .f32⟩ : BufTy).Contents (Elt F)),
    nullary main_c_4 (constantI S_ 32 8#32),
    unary main_c_4 main_v1 (broadcastInDim S64 ![] bcast_S_S64 : (⟨S_, .i32⟩ : BufTy).Contents (Elt F) → (⟨S64, .i32⟩ : BufTy).Contents (Elt F)),
    binary main_c main_v1 main_v2 (addi : (⟨S64, .i32⟩ : BufTy).Contents (Elt F) → (⟨S64, .i32⟩ : BufTy).Contents (Elt F) → (⟨S64, .i32⟩ : BufTy).Contents (Elt F)),
    ternary main_c_0 main_v2 main_c main_v3 (select : (⟨S64, .i1⟩ : BufTy).Contents (Elt F) → (⟨S64, .i32⟩ : BufTy).Contents (Elt F) → (⟨S64, .i32⟩ : BufTy).Contents (Elt F) → (⟨S64, .i32⟩ : BufTy).Contents (Elt F)),
    unary main_v3 main_v4 (broadcastInDim S64x1 ![0] bcast_S64_S64x1_0 : (⟨S64, .i32⟩ : BufTy).Contents (Elt F) → (⟨S64x1, .i32⟩ : BufTy).Contents (Elt F)),
    binary main_arg0 main_v4 main_v5 ((fun x i => Host.gather gather_S8x128x128_S64x1_S64x128x128_12_0_n_n_0_1_1128128 x i) : (⟨S8x128x128, .f32⟩ : BufTy).Contents (Elt F) → (⟨S64x1, .i32⟩ : BufTy).Contents (Elt F) → (⟨S64x128x128, .f32⟩ : BufTy).Contents (Elt F)),
    unary main_v5 main_v6 (broadcastInDim S64x128x128x1 ![0, 1, 2] bcast_S64x128x128_S64x128x128x1_0_1_2 : (⟨S64x128x128, .f32⟩ : BufTy).Contents (Elt F) → (⟨S64x128x128x1, .f32⟩ : BufTy).Contents (Elt F)),
    nullary main_c_5 (constantI S_ 32 8#32),
    unary main_c_5 main_v7 (broadcastInDim S64 ![] bcast_S_S64 : (⟨S_, .i32⟩ : BufTy).Contents (Elt F) → (⟨S64, .i32⟩ : BufTy).Contents (Elt F)),
    binary main_c_1 main_v7 main_v8 (addi : (⟨S64, .i32⟩ : BufTy).Contents (Elt F) → (⟨S64, .i32⟩ : BufTy).Contents (Elt F) → (⟨S64, .i32⟩ : BufTy).Contents (Elt F)),
    ternary main_c_2 main_v8 main_c_1 main_v9 (select : (⟨S64, .i1⟩ : BufTy).Contents (Elt F) → (⟨S64, .i32⟩ : BufTy).Contents (Elt F) → (⟨S64, .i32⟩ : BufTy).Contents (Elt F) → (⟨S64, .i32⟩ : BufTy).Contents (Elt F)),
    unary main_v9 main_v10 (broadcastInDim S64x1 ![0] bcast_S64_S64x1_0 : (⟨S64, .i32⟩ : BufTy).Contents (Elt F) → (⟨S64x1, .i32⟩ : BufTy).Contents (Elt F)),
    binary main_arg1 main_v10 main_v11 ((fun x i => Host.gather gather_S8x128x64_S64x1_S64x128x64_12_0_n_n_0_1_112864 x i) : (⟨S8x128x64, .f32⟩ : BufTy).Contents (Elt F) → (⟨S64x1, .i32⟩ : BufTy).Contents (Elt F) → (⟨S64x128x64, .f32⟩ : BufTy).Contents (Elt F)),
    unary main_v11 main_v12 (broadcastInDim S64x1x128x64 ![0, 2, 3] bcast_S64x128x64_S64x1x128x64_0_2_3 : (⟨S64x128x64, .f32⟩ : BufTy).Contents (Elt F) → (⟨S64x1x128x64, .f32⟩ : BufTy).Contents (Elt F)),
    unary main_v0 main_v13 (broadcastInDim S64x128x128x1 ![0, 1, 2, 3] bcast_S64x1x1x1_S64x128x128x1_0_1_2_3 : (⟨S64x1x1x1, .f32⟩ : BufTy).Contents (Elt F) → (⟨S64x128x128x1, .f32⟩ : BufTy).Contents (Elt F)),
    binary main_v13 main_v6 main_v14 (mulf : (⟨S64x128x128x1, .f32⟩ : BufTy).Contents (Elt F) → (⟨S64x128x128x1, .f32⟩ : BufTy).Contents (Elt F) → (⟨S64x128x128x1, .f32⟩ : BufTy).Contents (Elt F)),
    unary main_v14 main_v15 (broadcastInDim S64x128x128x64 ![0, 1, 2, 3] bcast_S64x128x128x1_S64x128x128x64_0_1_2_3 : (⟨S64x128x128x1, .f32⟩ : BufTy).Contents (Elt F) → (⟨S64x128x128x64, .f32⟩ : BufTy).Contents (Elt F)),
    unary main_v12 main_v16 (broadcastInDim S64x128x128x64 ![0, 1, 2, 3] bcast_S64x1x128x64_S64x128x128x64_0_1_2_3 : (⟨S64x1x128x64, .f32⟩ : BufTy).Contents (Elt F) → (⟨S64x128x128x64, .f32⟩ : BufTy).Contents (Elt F)),
    binary main_v15 main_v16 main_v17 (mulf : (⟨S64x128x128x64, .f32⟩ : BufTy).Contents (Elt F) → (⟨S64x128x128x64, .f32⟩ : BufTy).Contents (Elt F) → (⟨S64x128x128x64, .f32⟩ : BufTy).Contents (Elt F)),
    nullary main_cst_6 (constant S_ .f32 0x00000000#32),
    unary main_cst_6 main_v18 (broadcastInDim S8x128x128x64 ![] bcast_S_S8x128x128x64 : (⟨S_, .f32⟩ : BufTy).Contents (Elt F) → (⟨S8x128x128x64, .f32⟩ : BufTy).Contents (Elt F)),
    unary main_c_3 main_v19 (broadcastInDim S64x1 ![0] bcast_S64_S64x1_0 : (⟨S64, .i32⟩ : BufTy).Contents (Elt F) → (⟨S64x1, .i32⟩ : BufTy).Contents (Elt F)),
    ternary main_v18 main_v19 main_v17 main_v20 ((fun x i u => Host.scatterAdd scatter_S8x128x128x64_S64x1_S64x128x128x64_123_0_0_1 x i u) : (⟨S8x128x128x64, .f32⟩ : BufTy).Contents (Elt F) → (⟨S64x1, .i32⟩ : BufTy).Contents (Elt F) → (⟨S64x128x128x64, .f32⟩ : BufTy).Contents (Elt F) → (⟨S8x128x128x64, .f32⟩ : BufTy).Contents (Elt F)),
    nullary main_cst_7 (constant S_ .f32 0x00000000#32),
    binary main_v20 main_cst_7 main_v21 ((fun x v => Host.reduceAdd x v reducesTo_S8x128x128x64_S8x128x64_d2 h_S_) : (⟨S8x128x128x64, .f32⟩ : BufTy).Contents (Elt F) → (⟨S_, .f32⟩ : BufTy).Contents (Elt F) → (⟨S8x128x64, .f32⟩ : BufTy).Contents (Elt F)) ]

theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨nullary_bufs_sub .., nullary_bufs_sub .., nullary_bufs_sub .., nullary_bufs_sub .., nullary_bufs_sub .., nullary_bufs_sub .., unary_bufs_sub .., nullary_bufs_sub .., unary_bufs_sub .., binary_bufs_sub .., ternary_bufs_sub .., unary_bufs_sub .., binary_bufs_sub .., unary_bufs_sub .., nullary_bufs_sub .., unary_bufs_sub .., binary_bufs_sub .., ternary_bufs_sub .., unary_bufs_sub .., binary_bufs_sub .., unary_bufs_sub .., unary_bufs_sub .., binary_bufs_sub .., unary_bufs_sub .., unary_bufs_sub .., binary_bufs_sub .., nullary_bufs_sub .., unary_bufs_sub .., unary_bufs_sub .., ternary_bufs_sub .., nullary_bufs_sub .., binary_bufs_sub ..⟩

/-- From any memory with zero counters, every weakly fair execution of the reference terminates with the result buffer
    at `refTerm` of the arguments' launch contents and the arguments unchanged. -/
theorem run_term (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v21)
        = refTerm (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v21).trans (by unfold refTerm signedX gatheredW startIdx; after_results_simp; rfl),
      (h c main_arg0).trans (by after_results_simp),
      (h c main_arg1).trans (by after_results_simp)⟩)
    (run_seq scopedRefs_eq scopedSems_eq defs main (fun _ => ops) main_eq (fun _ => ops_sub) m ρ)

end Cert.GeomProduct.Ref

end
-- ==== Proof.RefValue.lean ====
/-
  The reference program's run and its value: every weakly fair execution terminates with the result array at
  `Blades.pairSum` of the two argument arrays and the arguments unchanged.  The program gathers the pairs' input
  blades `x[a_p]` and weight blades `w[b_p]`, multiplies `(sign_p · x[a_p]) · w[b_p]` entry by entry, adds the pairs
  landing on each output blade (a scatter-add into zeros) and sums over the feature axis.

  The run itself (the operations listed, the result buffer at their composed term `refTerm`) is `Ref.run_term`; here
  `refTerm` is read at an index.  The four tables: the sign words are those of `sgn`, the two gather tables read
  signed and clamped are `p / 8` and `p % 8`, the scatter table read signed is `outBlade`.  The start indices are the
  tables themselves (the mask that would move a negative entry up by 8 is all false).  Each broadcast reads its operand
  at the coordinates it keeps; the reduction over the feature axis is the sum over `f : Fin 128` of the scattered array
  at `(o, b, f, u)`, which is zero plus the sum over the pairs whose output blade is `o` of the two factors' product.
-/
import proofs.«127609_j60069412602337_1_alg».proof.Proof.Gen.ReferenceIdeal
import proofs.«127609_j60069412602337_1_alg».proof.Proof.Blades
import proofs.«127609_j60069412602337_1_alg».proof.Proof.RefIndexOps
import proofs.«127609_j60069412602337_1_alg».proof.Proof.RefRun
import Idealize.ShloMosaic.Lib.StableHlo.Run
import Idealize.ShloMosaic.Lib.ValueIdx
import Idealize.ShloMosaic.Lib.ValueLayout
import Idealize.ShloMosaic.Lib.IdealHost
import Idealize.ShloMosaic.Lib.Pipeline.Value
import Idealize.ShloMosaic.PureOps.Ideal.Laws

noncomputable section

open scoped BigOperators

namespace Cert.GeomProduct.Ref

open Cert.ReferenceIdeal Cert.ReferenceIdeal.Gen Idealize.ShloMosaic Idealize.ShloMosaic.TcCoe Idealize.SL.Sem Idealize.ShloMosaic.StableHlo

open Idealize.ShloMosaic.ValueIdx

/-! ## The tables -/

/-- The f32 word `0xBF800000` is minus one. -/
theorem ofBits_neg_one_f32 : Ideal.ofBits .f32 0xBF800000#32 = -1 := by
  have h : Ideal.ofBits .f32 0xBF800000#32 = ((-(1 : ℝ) : ℝ) : EReal) := by
    simp [Ideal.ofBits, Ideal.ieee, -EReal.coe_mul, -EReal.coe_neg]; norm_num
  rw [h, EReal.coe_neg, EReal.coe_one]

/-- The sign table holds the word of `-1` at the negative pairs and of `1` at the others. -/
theorem lit0_eq : ∀ p : Fin 64, lit0 p = if negPair p then 0xBF800000#32 else 0x3F800000#32 := by decide

/-- The sign table read at the ideal values. -/
theorem ofBits_lit0 (p : Fin 64) : Ideal.ofBits .f32 (lit0 p) = sgn p := by
  rw [lit0_eq p]; unfold sgn
  cases negPair p
  · exact Ideal.ofBits_one_f32
  · exact ofBits_neg_one_f32

/-- The input-blade table, read signed and clamped into `[0, 7]`, is the pair's input blade. -/
theorem lit1_eq : ∀ p : Fin 64, min (lit1 p).toInt.toNat 7 = p.val / 8 := by decide
/-- The weight-blade table likewise. -/
theorem lit2_eq : ∀ p : Fin 64, min (lit2 p).toInt.toNat 7 = p.val % 8 := by decide
/-- The output-blade table read signed. -/
theorem lit3_eq : ∀ p : Fin 64, (lit3 p).toInt = ((outBlade p).val : ℤ) := by decide

/-! ## The index arrays -/

/-- A table read at the row-major position of a rank-1 index. -/
theorem table_rowMajor {α : Type} (t : Fin 64 → α) (p : Fin 64) : t (S64.rowMajor (ix1 p)) = t p :=
  congrArg t (Fin.ext (by rw [Shape.rowMajor_val_one]))

/-- A [64] array as a [64, 1] column. -/
theorem col_apply {α : Type} (t : S64.Idx → α) (p : Fin 64) :
    broadcastInDim S64x1 ![0] bcast_S64_S64x1_0 t (ix2 p (0 : Fin 1)) = t (ix1 p) :=
  broadcastInDim_apply _ _ _ (ix2 p (0 : Fin 1)) (ix1 p) (fun a => match a with | ⟨0, _⟩ => rfl)

/-- The start indices are the table: the mask keeps every entry. -/
theorem startIdx_apply (t : Fin 64 → BitVec 32) (p : Fin 64) : startIdx t (ix2 p (0 : Fin 1)) = t p := by
  unfold startIdx
  rw [col_apply, select_apply, constantI_apply, select_zero]
  exact table_rowMajor t p

/-! ## The factors at an index -/

/-- The signed first factor at pair `p`, batch row `b`, feature `f`. -/
theorem signedX_apply (x : FVec Ideal S8x128x128 .f32) (p : Fin 64) (b f : Fin 128) :
    signedX x (ix4 p b f (0 : Fin 1)) = sgn p * x (ix3 (xBlade p) b f) := by
  unfold signedX
  rw [mulf_apply]
  congr 1
  · refine (broadcastInDim_apply _ _ _ (ix4 p b f (0 : Fin 1)) (ix4 p (0 : Fin 1) (0 : Fin 1) (0 : Fin 1))
      (fun a => match a with | ⟨0, _⟩ => rfl | ⟨1, _⟩ => rfl | ⟨2, _⟩ => rfl | ⟨3, _⟩ => rfl)).trans ?_
    refine (broadcastInDim_apply _ _ _ (ix4 p (0 : Fin 1) (0 : Fin 1) (0 : Fin 1)) (ix1 p)
      (fun a => match a with | ⟨0, _⟩ => rfl)).trans ?_
    exact (table_rowMajor (fun q => Ideal.ofBits .f32 (lit0 q)) p).trans (ofBits_lit0 p)
  · refine (broadcastInDim_apply _ _ _ (ix4 p b f (0 : Fin 1)) (ix3 p b f)
      (fun a => match a with | ⟨0, _⟩ => rfl | ⟨1, _⟩ => rfl | ⟨2, _⟩ => rfl)).trans ?_
    rw [RefOps.gather_x_apply]
    refine congrArg x (congrArg (fun a => ix3 a b f) (Fin.ext ?_))
    show min (startIdx lit1 (ix2 p (0 : Fin 1))).toInt.toNat 7 = p.val / 8
    rw [startIdx_apply]; exact lit1_eq p

/-- The second factor at pair `p`, any batch row, feature `f`, unit `u`. -/
theorem gatheredW_apply (w : FVec Ideal S8x128x64 .f32) (p : Fin 64) (b f : Fin 128) (u : Fin 64) :
    gatheredW w (ix4 p b f u) = w (ix3 (wBladeOf p) f u) := by
  unfold gatheredW
  refine (broadcastInDim_apply _ _ _ (ix4 p b f u) (ix4 p (0 : Fin 1) f u)
    (fun a => match a with | ⟨0, _⟩ => rfl | ⟨1, _⟩ => rfl | ⟨2, _⟩ => rfl | ⟨3, _⟩ => rfl)).trans ?_
  refine (broadcastInDim_apply _ _ _ (ix4 p (0 : Fin 1) f u) (ix3 p f u)
    (fun a => match a with | ⟨0, _⟩ => rfl | ⟨1, _⟩ => rfl | ⟨2, _⟩ => rfl)).trans ?_
  rw [RefOps.gather_w_apply]
  refine congrArg w (congrArg (fun a => ix3 a f u) (Fin.ext ?_))
  show min (startIdx lit2 (ix2 p (0 : Fin 1))).toInt.toNat 7 = p.val % 8
  rw [startIdx_apply]; exact lit2_eq p

/-- The index over result index `(o, b, u)` with feature `f` put back on the summed axis. -/
theorem lift_eq (h : Shape.Reduces S8x128x128x64 [2] S8x128x64) (o : Fin 8) (b : Fin 128) (u : Fin 64) (f : Fin 128) :
    h.lift (ix3 o b u) f = ix4 o b f u := by
  funext c
  match c with
  | ⟨0, _⟩ => rfl
  | ⟨1, _⟩ => rfl
  | ⟨2, _⟩ => rfl
  | ⟨3, _⟩ => rfl

/-! ## The value -/

/-- The reference's operations composed are the pair-by-pair sum. -/
theorem refTerm_eq_pairSum (x : FVec Ideal S8x128x128 .f32) (w : FVec Ideal S8x128x64 .f32) :
    refTerm x w = pairSum x w := by
  funext i
  obtain ⟨o, b, u, rfl⟩ : ∃ o b u, i = ix3 o b u := ⟨i 0, i 1, i 2, eq_ix3 i⟩
  unfold refTerm pairSum
  rw [hostReduceAdd_apply, Ideal.hostReduceAdd_single _ (by decide : Shape.Reduces S8x128x128x64 [2] S8x128x64),
    constant_apply, Ideal.ofBits_zero_f32, zero_add]
  refine Finset.sum_congr (ι := Fin 128) rfl fun f _ => ?_
  rw [lift_eq, RefOps.scatterAdd_apply, broadcastInDim_scalar_apply, constant_apply, Ideal.ofBits_zero_f32, zero_add]
  refine Finset.sum_congr (Finset.filter_congr fun p _ => ?_) fun p _ => ?_
  · rw [col_apply, table_rowMajor lit3 p, lit3_eq p]
    exact Nat.cast_inj
  · rw [mulf_apply, gatheredW_apply]
    refine congrArg (· * _) ?_
    refine (broadcastInDim_apply _ _ _ (ix4 p b f u) (ix4 p b f (0 : Fin 1))
      (fun a => match a with | ⟨0, _⟩ => rfl | ⟨1, _⟩ => rfl | ⟨2, _⟩ => rfl | ⟨3, _⟩ => rfl)).trans ?_
    exact signedX_apply x p b f

/-! ## The run -/

/-- The reference's run at the ideal instance, with its result named. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v21)
        = Cert.GeomProduct.pairSum (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (refTerm_eq_pairSum _ _), (h c).2⟩) (run_term m ρ)

end Cert.GeomProduct.Ref

end
-- ==== Proof.lean ====
/-
  The geometric product of multivectors as a dense layer: a kernel that accumulates, per input blade, one matrix
  product of the blade's inputs with the eight signed weight blocks set side by side, against a reference that forms
  every signed pair product, adds the pairs landing on each output blade and sums over the features.

  Both programs end with the same array of extended reals: the kernel's result is `Blades.bladeSum` of the two
  argument arrays (`KerRun.run`), the reference's is `Blades.pairSum` (`RefValue.run`), and the two are one function
  (`BladesLaw.bladeSum_eq_pairSum`: a finite sum re-indexed and two sums exchanged; signs move from the input to the
  weight).  No finiteness of the inputs is needed: addition of extended reals is commutative and associative and
  `(-1 · x) · w = x · (0 - w)` holds for all of them.  The frames of the two kernel programs are the generated ones;
  the reference's frame is its run with the result dropped; the idealization rewrote nothing.
-/
import proofs.«127609_j60069412602337_1_alg».proof.Defs
import proofs.«127609_j60069412602337_1_alg».proof.Proof.Gen.Kernel
import proofs.«127609_j60069412602337_1_alg».proof.Proof.Gen.Kernel.Skeleton
import proofs.«127609_j60069412602337_1_alg».proof.Proof.Gen.Kernel.Launch
import proofs.«127609_j60069412602337_1_alg».proof.Proof.Gen.Kernel.Points
import proofs.«127609_j60069412602337_1_alg».proof.Proof.Gen.Kernel.Frame
import proofs.«127609_j60069412602337_1_alg».proof.Proof.Gen.KernelIdeal
import proofs.«127609_j60069412602337_1_alg».proof.Proof.Gen.KernelIdeal.Skeleton
import proofs.«127609_j60069412602337_1_alg».proof.Proof.Gen.KernelIdeal.Launch
import proofs.«127609_j60069412602337_1_alg».proof.Proof.Gen.KernelIdeal.Points
import proofs.«127609_j60069412602337_1_alg».proof.Proof.Gen.KernelIdeal.Frame
import proofs.«127609_j60069412602337_1_alg».proof.Proof.Gen.KernelIdeal.Value
import proofs.«127609_j60069412602337_1_alg».proof.Proof.Gen.ReferenceIdeal
import proofs.«127609_j60069412602337_1_alg».proof.Proof.Gen.Pre_finite_inputs
import proofs.«127609_j60069412602337_1_alg».proof.Proof.BladesLaw
import proofs.«127609_j60069412602337_1_alg».proof.Proof.KerRun
import proofs.«127609_j60069412602337_1_alg».proof.Proof.RefValue
import Idealize.ShloMosaic.Adequacy
import Idealize.ShloMosaic.Init

noncomputable section

namespace Cert.Proof

open Idealize.ShloMosaic Idealize.SL.Sem

/-- The kernel's program as printed: the generated frame. -/
theorem frame_kernel : Cert.frame_Kernel := fun m ρ _ => Cert.Kernel.Gen.frame m ρ

/-- The idealized kernel: the generated frame. -/
theorem frame_kernelIdeal : Cert.frame_KernelIdeal := fun m ρ _ => Cert.KernelIdeal.Gen.frame m ρ

/-- The reference: its run, the result dropped. -/
theorem frame_referenceIdeal : Cert.frame_ReferenceIdeal := fun m ρ _ =>
  (θ_run Cert.ReferenceIdeal.defs _ _).mono (fun _ h c => (h c).2) (Cert.GeomProduct.Ref.run m ρ)

/-- The idealization rewrote no operation. -/
theorem preserves : Cert.preserves_Kernel_KernelIdeal := trivial

/-- Both runs end at one array: the blade sum of the arguments is their pair sum. -/
theorem algebraic : Cert.algebraic_KernelIdeal_ReferenceIdeal := by
  intro m ρ m' ρ' _ hagree
  refine ⟨_, Cert.GeomProduct.Ker.run m ρ, ?_⟩
  refine (θ_run Cert.ReferenceIdeal.defs _ _).mono (fun _ h c => ⟨(h c).1.trans ?_, (h c).2⟩)
    (Cert.GeomProduct.Ref.run m' ρ')
  rw [(hagree c).1, (hagree c).2]
  exact (Cert.GeomProduct.bladeSum_eq_pairSum _ _).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
